-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg1 : IVec S2x1600000 32) (main_v67 : IVec S_ 1) : IVec S_ 1 :=
  let main_c_26 : IVec S_ 32 := constantI S_ 32 100000#32
  let main_v68 : IVec S2x1600000 32 := broadcastInDim S2x1600000 ![] bcast_S_S2x1600000 main_c_26
  let main_v69 : IVec S2x1600000 1 := cmpi .slt main_arg1 main_v68
  let main_c_27 : IVec S_ 1 := constantI S_ 1 1#1
  let main_v70 : IVec S_ 1 := (fun x v => Host.reduce IntOp.andi x v reducesTo_S2x1600000_S_d0_1 h_S_) main_v69 main_c_27
  let main_v71 : IVec S_ 1 := andi main_v67 main_v70
  main_v71

def fn_part3 {F : FTy → Type} [FloatOps F] (main_arg1 : IVec S2x1600000 32) (main_arg12 : FVec F S16x1 .f32) (main_arg13 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x1 .f32 := Host.absf main_arg12
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg1 main_v64
  let main_c_25 : IVec S_ 1 := constantI S_ 1 1#1
  let main_v66 : IVec S_ 1 := (fun x v => Host.reduce IntOp.andi x v reducesTo_S2x1600000_S_d0_1 h_S_) main_v65 main_c_25
  let main_v67 : IVec S_ 1 := andi main_v63 main_v66
  fn_part4 (F := F) main_arg1 main_v67

def fn_part2 {F : FTy → Type} [FloatOps F] (main_arg1 : IVec S2x1600000 32) (main_arg8 : FVec F S64x32 .f32) (main_arg9 : FVec F S32 .f32) (main_arg10 : FVec F S32x16 .f32) (main_arg11 : FVec F S16 .f32) (main_arg12 : FVec F S16x1 .f32) (main_arg13 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_arg12 main_arg13 main_v48 main_v49 main_v50

def fn_part1 {F : FTy → Type} [FloatOps F] (main_arg1 : IVec S2x1600000 32) (main_arg5 : FVec F S64 .f32) (main_arg6 : FVec F S128x64 .f32) (main_arg7 : FVec F S64 .f32) (main_arg8 : FVec F S64x32 .f32) (main_arg9 : FVec F S32 .f32) (main_arg10 : FVec F S32x16 .f32) (main_arg11 : FVec F S16 .f32) (main_arg12 : FVec F S16x1 .f32) (main_arg13 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S64x32 .f32) (main_arg9 : FVec F S32 .f32) (main_arg10 : FVec F S32x16 .f32) (main_arg11 : FVec F S16 .f32) (main_arg12 : FVec F S16x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1x1 : Shape := ⟨2, ![1, 1]⟩
abbrev S1600000x128 : Shape := ⟨2, ![1600000, 128]⟩
abbrev S5000x1 : Shape := ⟨2, ![5000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S8000x128 : Shape := ⟨2, ![8000, 128]⟩
abbrev S8000x1 : Shape := ⟨2, ![8000, 1]⟩
abbrev S8000x64 : Shape := ⟨2, ![8000, 64]⟩
abbrev S8000x32 : Shape := ⟨2, ![8000, 32]⟩
abbrev S1x32 : Shape := ⟨2, ![1, 32]⟩
abbrev S8000x16 : Shape := ⟨2, ![8000, 16]⟩
abbrev S1x16 : Shape := ⟨2, ![1, 16]⟩

abbrev nBuf : Space → Nat
  | .hbm => 164
  | .vmem => 40
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S64x32, .f32⟩
  | 9 => ⟨S32, .f32⟩
  | 10 => ⟨S32x16, .f32⟩
  | 11 => ⟨S16, .f32⟩
  | 12 => ⟨S16x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1, .i32⟩
  | 61 => ⟨S_, .i32⟩
  | 62 => ⟨S1600000x1, .i32⟩
  | 63 => ⟨S1600000x1, .i1⟩
  | 64 => ⟨S1x1, .i32⟩
  | 65 => ⟨S1600000x1, .i32⟩
  | 66 => ⟨S1600000x1, .i1⟩
  | 67 => ⟨S1600000x1, .i1⟩
  | 68 => ⟨S_, .i1⟩
  | 69 => ⟨S1600000, .i1⟩
  | 70 => ⟨S1600000x128, .f32⟩
  | 71 => ⟨S1600000x128, .i1⟩
  | 72 => ⟨S_, .f32⟩
  | 73 => ⟨S1600000x128, .f32⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S100000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1, .i32⟩
  | 93 => ⟨S_, .i32⟩
  | 94 => ⟨S1600000x1, .i32⟩
  | 95 => ⟨S1600000x1, .i1⟩
  | 96 => ⟨S1x1, .i32⟩
  | 97 => ⟨S1600000x1, .i32⟩
  | 98 => ⟨S1600000x1, .i1⟩
  | 99 => ⟨S1600000x1, .i1⟩
  | 100 => ⟨S_, .i1⟩
  | 101 => ⟨S1600000, .i1⟩
  | 102 => ⟨S1600000x64, .f32⟩
  | 103 => ⟨S1600000x64, .i1⟩
  | 104 => ⟨S_, .f32⟩
  | 105 => ⟨S1600000x64, .f32⟩
  | 106 => ⟨S1600000x64, .f32⟩
  | 107 => ⟨S1600000x1, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1, .i32⟩
  | 124 => ⟨S_, .i32⟩
  | 125 => ⟨S1600000x1, .i32⟩
  | 126 => ⟨S1600000x1, .i1⟩
  | 127 => ⟨S1x1, .i32⟩
  | _ => ⟨S100000x128, .f32⟩

abbrev hbmTy0_1 (i : Nat) : BufTy := match i % 128 with
  | 0 => ⟨S1600000x1, .i32⟩
  | 1 => ⟨S1600000x1, .i1⟩
  | 2 => ⟨S1600000x1, .i1⟩
  | 3 => ⟨S_, .i1⟩
  | 4 => ⟨S1600000, .i1⟩
  | 5 => ⟨S1600000x64, .f32⟩
  | 6 => ⟨S1600000x64, .i1⟩
  | 7 => ⟨S_, .f32⟩
  | 8 => ⟨S1600000x64, .f32⟩
  | 9 => ⟨S1600000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1, .i32⟩
  | 19 => ⟨S_, .i32⟩
  | 20 => ⟨S1600000x1, .i32⟩
  | 21 => ⟨S1600000x1, .i1⟩
  | 22 => ⟨S1x1, .i32⟩
  | 23 => ⟨S1600000x1, .i32⟩
  | 24 => ⟨S1600000x1, .i1⟩
  | 25 => ⟨S1600000x1, .i1⟩
  | 26 => ⟨S_, .i1⟩
  | 27 => ⟨S1600000, .i1⟩
  | 28 => ⟨S1600000x64, .f32⟩
  | 29 => ⟨S1600000x64, .i1⟩
  | 30 => ⟨S_, .f32⟩
  | 31 => ⟨S1600000x64, .f32⟩
  | 32 => ⟨S1600000x64, .f32⟩
  | 33 => ⟨S1600000x128, .f32⟩
  | 34 => ⟨S1600000x1, .f32⟩
  | 35 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S8000x128, .f32⟩
  | .local _ .vmem, ⟨29, _⟩ => ⟨S8000x128, .f32⟩
  | .local _ .vmem, ⟨30, _⟩ => ⟨S128x64, .f32⟩
  | .local _ .vmem, ⟨31, _⟩ => ⟨S64, .f32⟩
  | .local _ .vmem, ⟨32, _⟩ => ⟨S64x32, .f32⟩
  | .local _ .vmem, ⟨33, _⟩ => ⟨S32, .f32⟩
  | .local _ .vmem, ⟨34, _⟩ => ⟨S32x16, .f32⟩
  | .local _ .vmem, ⟨35, _⟩ => ⟨S16, .f32⟩
  | .local _ .vmem, ⟨36, _⟩ => ⟨S16x1, .f32⟩
  | .local _ .vmem, ⟨37, _⟩ => ⟨S1, .f32⟩
  | .local _ .vmem, ⟨38, _⟩ => ⟨S8000x1, .f32⟩
  | .local _ .vmem, ⟨39, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_7 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v47 : Ref sig .tc := ⟨.hbm, 137, rfl⟩
abbrev main_call3_c : Ref sig .tc := ⟨.hbm, 138, rfl⟩
abbrev main_call3_v0 : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_c_1 : Ref sig .tc := ⟨.hbm, 146, rfl⟩
abbrev main_call3_c_2 : Ref sig .tc := ⟨.hbm, 147, rfl⟩
abbrev main_call3_v6 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_3 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_call3_cst : Ref sig .tc := ⟨.hbm, 158, rfl⟩
abbrev main_call3_v15 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg8_0 : Ref sig .tc := ⟨.vmem, 37, rfl⟩
abbrev cc4_stg9_0 : Ref sig .tc := ⟨.vmem, 38, rfl⟩
abbrev cc4_stg9_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem8_0 : DmaSem sig := 37
abbrev cc4_sem9_0 : DmaSem sig := 38
abbrev cc4_sem9_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S16x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  concatenates_S1600000x64_S1600000x64_S1600000x128_d1 : Shape.Concatenates [S1600000x64, S1600000x64] S1600000x128 1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S8000x16 : S1x16.Broadcasts S8000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  dot_S8000x32_S32x16_S8000x16_1_0_0_1_n_n_wf : DotDims.WF S8000x32 S32x16 S8000x16 [1] [0] [0] [1] [] []
  dot_S8000x16_S16x1_S8000x1_1_0_0_1_n_n_wf : DotDims.WF S8000x16 S16x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S1600000x128.size a
  hwx4_0 : ∀ i : grid4.Coords, EltTy.bits .f32 = 32 ∨ (Rect.block (s := S1600000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x16.size a ≤ S32x16.size a
  hwx4_5 : ∀ i : grid4.Coords, EltTy.bits .f32 = 32 ∨ (Rect.block (s := S32x16) S32x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S16.size a ≤ S16.size a
  hwx4_6 : ∀ i : grid4.Coords, EltTy.bits .f32 = 32 ∨ (Rect.block (s := S16) S16.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S16x1.size a ≤ S16x1.size a
  hwx4_7 : ∀ i : grid4.Coords, EltTy.bits .f32 = 32 ∨ (Rect.block (s := S16x1) S16x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1.size a ≤ S1.size a
  hwx4_8 : ∀ i : grid4.Coords, EltTy.bits .f32 = 32 ∨ (Rect.block (s := S1) S1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8000x1.size a ≤ S1600000x1.size a
  hwx4_9 : ∀ i : grid4.Coords, EltTy.bits .f32 = 32 ∨ (Rect.block (s := S1600000x1) S8000x1.size (cc4_transform_9 i) (hinb4_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S32x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg12) S16x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg13) S1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v50) S8000x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S1600000x32 : Shape := ⟨2, ![1600000, 32]⟩
abbrev S1x32 : Shape := ⟨2, ![1, 32]⟩
abbrev S1600000x16 : Shape := ⟨2, ![1600000, 16]⟩
abbrev S1x16 : Shape := ⟨2, ![1, 16]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S64x32, .f32⟩
  | 9 => ⟨S32, .f32⟩
  | 10 => ⟨S32x16, .f32⟩
  | 11 => ⟨S16, .f32⟩
  | 12 => ⟨S16x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x1, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x128, .f32⟩
  | 11 => ⟨S1600000x64, .f32⟩
  | 12 => ⟨S1x64, .f32⟩
  | 13 => ⟨S1600000x64, .f32⟩
  | 14 => ⟨S1600000x64, .f32⟩
  | 15 => ⟨S_, .f32⟩
  | 16 => ⟨S1600000x64, .f32⟩
  | 17 => ⟨S1600000x64, .f32⟩
  | 18 => ⟨S1600000x32, .f32⟩
  | 19 => ⟨S1x32, .f32⟩
  | 20 => ⟨S1600000x32, .f32⟩
  | 21 => ⟨S1600000x32, .f32⟩
  | 22 => ⟨S_, .f32⟩
  | 23 => ⟨S1600000x32, .f32⟩
  | 24 => ⟨S1600000x32, .f32⟩
  | 25 => ⟨S1600000x16, .f32⟩
  | 26 => ⟨S1x16, .f32⟩
  | 27 => ⟨S1600000x16, .f32⟩
  | 28 => ⟨S1600000x16, .f32⟩
  | 29 => ⟨S_, .f32⟩
  | 30 => ⟨S1600000x16, .f32⟩
  | 31 => ⟨S1600000x16, .f32⟩
  | 32 => ⟨S1600000x1, .f32⟩
  | 33 => ⟨S1x1, .f32⟩
  | 34 => ⟨S1600000x1, .f32⟩
  | 35 => ⟨S1600000x1, .f32⟩
  | 36 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_c_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call1_cst : Ref sig .tc := ⟨.hbm, 143, rfl⟩
abbrev main_call1_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call2_cst : Ref sig .tc := ⟨.hbm, 150, rfl⟩
abbrev main_call2_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_call3_cst : Ref sig .tc := ⟨.hbm, 157, rfl⟩
abbrev main_call3_v0 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  dot_S1600000x32_S32x16_S1600000x16_1_0_0_1_n_n_wf : DotDims.WF S1600000x32 S32x16 S1600000x16 [1] [0] [0] [1] [] []
  dot_S1600000x16_S16x1_S1600000x1_1_0_0_1_n_n_wf : DotDims.WF S1600000x16 S16x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x16_S1600000x16_1_0_0_1_n_n : DotDims S1600000x32 S32x16 S1600000x16 where
  lhsContracting := [1]
  rhsContracting := [0]
  lhsNonContracting := [0]
  rhsNonContracting := [1]
  lhsBatch := []
  rhsBatch := []
  wf := dot_S1600000x32_S32x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf

class Facts : Prop extends Facts₀ where

variable [Facts]
-- ==== Proof.Spec.lean ====
/-
  What the five kernels compute, as whole-array functions over the extended reals, entry by entry.

  A graph-convolution layer is `agg + h · (1/deg) + b`: `agg` the neighbours' aggregate, `h` the projected features,
  `1/deg` a column constant along each row, `b` a row vector constant down each column; the first layer is clipped
  below at zero. The edge decoder is four affine maps `x ↦ x · w + b`, the first three clipped below at zero.
  A matrix product is read as the finite sum over the contracted axis. The zero of the clipping is kept as the
  word both programs print (`zeroW`): it is never evaluated.
-/
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Mat (a b : Nat) : Type := (⟨2, ![a, b]⟩ : Shape).Idx → EReal
/-- A vector of `a` extended reals. -/
abbrev Vec1 (a : Nat) : Type := (⟨1, ![a]⟩ : Shape).Idx → EReal

/-- The row of an entry. -/
abbrev row {a b : Nat} (i : (⟨2, ![a, b]⟩ : Shape).Idx) : Fin a := ⟨(i 0).val, idx2_lt0 i⟩
/-- The column of an entry. -/
abbrev col {a b : Nat} (i : (⟨2, ![a, b]⟩ : Shape).Idx) : Fin b := ⟨(i 1).val, idx2_lt1 i⟩

/-- The zero both programs clip against, as the word they print. -/
abbrev zeroW : EReal := Ideal.ofBits .f32 0x00000000#32

/-- The matrix product: entry `(r, c)` is `∑ k, x (r, k) * w (k, c)`. -/
def mm {M K N : Nat} (x : Mat M K) (w : Mat K N) : Mat M N :=
  fun i => ∑ k : Fin K, x (ix2 (row i) k) * w (ix2 k (col i))

/-- One graph-convolution combine: `agg + h · d + b`, `d` a column read at the entry's row, `b` a vector read at
    the entry's column. -/
def combine {M N : Nat} (agg h : Mat M N) (d : Mat M 1) (b : Vec1 N) : Mat M N :=
  fun i => (agg i + h i * d (ix2 (row i) (0 : Fin 1))) + b (ix1 (col i))

/-- The combine clipped below at zero. -/
def combineRelu {M N : Nat} (agg h : Mat M N) (d : Mat M 1) (b : Vec1 N) : Mat M N :=
  fun i => max (combine agg h d b i) zeroW

/-- An affine layer: `x · w + b`. -/
def lin {M K N : Nat} (x : Mat M K) (w : Mat K N) (b : Vec1 N) : Mat M N :=
  fun i => mm x w i + b (ix1 (col i))

/-- An affine layer clipped below at zero. -/
def linRelu {M K N : Nat} (x : Mat M K) (w : Mat K N) (b : Vec1 N) : Mat M N :=
  fun i => max (lin x w b i) zeroW

/-- The edge decoder: three clipped affine layers and a last affine one. -/
def decode {E : Nat} (h : Mat E 128) (w1 : Mat 128 64) (b1 : Vec1 64) (w2 : Mat 64 32) (b2 : Vec1 32)
    (w3 : Mat 32 16) (b3 : Vec1 16) (w4 : Mat 16 1) (b4 : Vec1 1) : Mat E 1 :=
  lin (linRelu (linRelu (linRelu h w1 b1) w2 b2) w3 b3) w4 b4

end Cert.Spec

end
-- ==== Proof.LibPlainDot.lean ====
/-
  A plain matrix product read at one entry, for any extents.

  For the dimension numbers of an `M×K` by `K×N` product (contract the left operand's axis 1 against the right
  operand's axis 0, no batch axis) the operand indices at output entry `(r, c)` and contraction position `k` are
  `(r, k)` and `(k, c)`. So over the extended reals a kernel's matrix unit product into a zero accumulator and the
  host's `dot_general` are the same finite sum `∑ k, lhs (r, k) * rhs (k, c)`: the sum over the one-axis
  contraction shape is re-indexed by its coordinate.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- Row `r` of the output, as a row of the left operand. -/
abbrev rowL (i : (⟨2, ![M, N]⟩ : Shape).Idx) : Fin M := ⟨(i 0).val, idx2_lt0 i⟩
/-- Column `c` of the output, as a column of the right operand. -/
abbrev colR (i : (⟨2, ![M, N]⟩ : Shape).Idx) : Fin N := ⟨(i 1).val, idx2_lt1 i⟩

theorem plain_contr_rank : (DotDims.plain M K N).contr.rank = 1 := rfl
theorem plain_contr_size : (DotDims.plain M K N).contr.size ⟨0, by rw [plain_contr_rank]; exact Nat.one_pos⟩ = K := rfl

/-- The left operand's row is the output's row. -/
theorem plain_lhs_0 (i : (⟨2, ![M, N]⟩ : Shape).Idx) (q : (DotDims.plain M K N).contr.Idx) :
    ((DotDims.plain M K N).lhsIdx i q 0).val = (i 0).val := rfl
/-- The left operand's column is the contraction position. -/
theorem plain_lhs_1 (i : (⟨2, ![M, N]⟩ : Shape).Idx) (q : (DotDims.plain M K N).contr.Idx) :
    ((DotDims.plain M K N).lhsIdx i q 1).val = (q ⟨0, by rw [plain_contr_rank]; exact Nat.one_pos⟩).val :=
  (DotDims.plain M K N).lhsIdx_val_of_single rfl i q
/-- The right operand's row is the contraction position. -/
theorem plain_rhs_0 (i : (⟨2, ![M, N]⟩ : Shape).Idx) (q : (DotDims.plain M K N).contr.Idx) :
    ((DotDims.plain M K N).rhsIdx i q 0).val = (q ⟨0, by rw [plain_contr_rank]; exact Nat.one_pos⟩).val :=
  (DotDims.plain M K N).rhsIdx_val_of_single rfl i q
/-- The right operand's column is the output's column. -/
theorem plain_rhs_1 (i : (⟨2, ![M, N]⟩ : Shape).Idx) (q : (DotDims.plain M K N).contr.Idx) :
    ((DotDims.plain M K N).rhsIdx i q 1).val = (i 1).val := rfl

/-- The sum over the contraction shape of a plain product is the sum over `k : Fin K` of the left operand at
    `(r, k)` times the right operand at `(k, c)`. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (rowL M N i) k) * rhs (ix2 k (colR M N i)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (rowL M N i) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (colR M N i) :=
    funext fun a => Fin.ext (by
      match a with
      | ⟨0, _⟩ => exact (plain_rhs_0 M K N _ _).trans hk
      | ⟨1, _⟩ => exact plain_rhs_1 M K N _ _)
  rw [el, er]

/-- The host's `dot_general` with plain dimension numbers, at one entry. -/
theorem hostDot_plain_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    Host.dotGeneral (DotDims.plain M K N) prec lhs rhs i = ∑ k : Fin K, lhs (ix2 (rowL M N i) k) * rhs (ix2 k (colR M N i)) := by
  simp only [Host.dotGeneral]
  rw [Ideal.dotGeneral_apply]
  exact plain_sum M K N lhs rhs i

/-- A kernel's matrix unit product with plain dimension numbers into a zero accumulator, at one entry. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    matmul (DotDims.plain M K N) prec lhs rhs (constant (F := Ideal) ⟨2, ![M, N]⟩ .f32 0x00000000#32) i
      = ∑ k : Fin K, lhs (ix2 (rowL M N i) k) * rhs (ix2 k (colR M N i)) := by
  exact (Ideal.matmul_constant_zero_apply (DotDims.plain M K N) prec lhs rhs i).trans (plain_sum M K N lhs rhs i)

end Cert.LibPlainDot

end
-- ==== Proof.RefSpec.lean ====
/-
  The reference, stage by stage, as the whole-array functions of the specification.

  Each projection of the reference is a host matrix product with plain dimension numbers: the sum over the
  contracted axis. Each combine is `(agg + h · bcast (1/deg)) + bcast b` with the `[N]` vector `1/deg` laid as an
  `[N, 1]` column and then along each row, and the bias laid as a `[1, C]` row and then down each column; read at an
  entry `(r, c)` these are the column at `(r, 0)` and the bias at `c`. The decoder's layers are the same two
  shapes, a product plus a bias laid down the columns, clipped against the broadcast zero word.
-/
import proofs.«405343_j79405355369095_1_alg».proof.Proof.Gen.ReferenceIdeal.Read
import proofs.«405343_j79405355369095_1_alg».proof.Proof.Spec
import proofs.«405343_j79405355369095_1_alg».proof.Proof.LibPlainDot

set_option maxRecDepth 16384

noncomputable section

namespace Cert.ReferenceIdeal.RefSpec

open Cert.ReferenceIdeal Cert.ReferenceIdeal.Read
open Idealize.ShloMosaic Idealize.ShloMosaic.TcCoe Idealize.ShloMosaic.ValueIdx Idealize.SL.Sem
open Cert.Spec

/-! ## The graph-convolution layers -/

/-- The first projection is the matrix product `x · W1`. -/
theorem v13_eq (x0 : (⟨S100000x128, .f32⟩ : BufTy).Contents (Elt Ideal)) (x2 : (⟨S128x128, .f32⟩ : BufTy).Contents (Elt Ideal)) :
    val_main_v13 (F := Ideal) x0 x2 = mm x0 x2 := by
  funext i
  exact Cert.LibPlainDot.hostDot_plain_apply 100000 128 128 none x0 x2 i

/-- The first layer, clipped: `max ((agg + h · d) + b) 0` entry by entry. -/
theorem v49_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v49 (F := Ideal) x0 x1 x2 x3
      = combineRelu (val_main_v41 (F := Ideal) x0 x1 x2) (val_main_v13 (F := Ideal) x0 x2) (val_main_v42 (F := Ideal) x1) x3 := by
  funext i
  rw [val_main_v49_apply, val_main_v48_apply, val_main_v45_apply, val_main_v44_apply, val_main_v43_apply,
    val_main_v47_apply, val_main_v46_apply, val_main_call0_v0_apply, val_main_call0_cst_apply]
  have e1 : idx_main_v43 i = ix2 (row i) (0 : Fin 1) := funext fun a => Fin.ext (by match a with | ⟨0, _⟩ => rfl | ⟨1, _⟩ => rfl)
  have e2 : idx_main_v46 (idx_main_v47 i) = ix1 (col i) := funext fun a => Fin.ext (by match a with | ⟨0, _⟩ => rfl)
  rw [e1, e2]
  rfl

/-- The second projection is the matrix product `z · W2`. -/
theorem v50_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v50 (F := Ideal) x0 x1 x2 x3 x4 = mm (val_main_v49 (F := Ideal) x0 x1 x2 x3) x4 := by
  funext i
  exact Cert.LibPlainDot.hostDot_plain_apply 100000 128 64 none (val_main_v49 (F := Ideal) x0 x1 x2 x3) x4 i

/-- The second layer, not clipped: `(agg + h · d) + b` entry by entry. -/
theorem v85_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v85 (F := Ideal) x0 x1 x2 x3 x4 x5
      = combine (val_main_v78 (F := Ideal) x0 x1 x2 x3 x4) (val_main_v50 (F := Ideal) x0 x1 x2 x3 x4) (val_main_v79 (F := Ideal) x1) x5 := by
  funext i
  rw [val_main_v85_apply, val_main_v82_apply, val_main_v81_apply, val_main_v80_apply, val_main_v84_apply, val_main_v83_apply]
  have e1 : idx_main_v80 i = ix2 (row i) (0 : Fin 1) := funext fun a => Fin.ext (by match a with | ⟨0, _⟩ => rfl | ⟨1, _⟩ => rfl)
  have e2 : idx_main_v83 (idx_main_v84 i) = ix1 (col i) := funext fun a => Fin.ext (by match a with | ⟨0, _⟩ => rfl)
  rw [e1, e2]
  rfl

/-- The `1/deg` column is built once per layer from the same vector: the two columns are one array. -/
theorem v79_eq (x1 : (⟨S2x1600000, .i32⟩ : BufTy).Contents (Elt Ideal)) :
    val_main_v79 (F := Ideal) x1 = val_main_v42 (F := Ideal) x1 := rfl

/-! ## The edge decoder -/

/-- The decoder's first layer: `max (h · fw1 + fb1) 0`. -/
theorem v105_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) :
    val_main_v105 (F := Ideal) x0 x1 x2 x3 x4 x5 x6 x7 = linRelu (val_main_v100 (F := Ideal) x0 x1 x2 x3 x4 x5) x6 x7 := by
  funext i
  rw [val_main_v105_apply, val_main_v104_apply, val_main_v103_apply, val_main_v102_apply, val_main_call1_v0_apply, val_main_call1_cst_apply]
  have e2 : idx_main_v102 (idx_main_v103 i) = ix1 (col i) := funext fun a => Fin.ext (by match a with | ⟨0, _⟩ => rfl)
  have ed : val_main_v101 (F := Ideal) x0 x1 x2 x3 x4 x5 x6 i = mm (val_main_v100 (F := Ideal) x0 x1 x2 x3 x4 x5) x6 i :=
    Cert.LibPlainDot.hostDot_plain_apply 1600000 128 64 none (val_main_v100 (F := Ideal) x0 x1 x2 x3 x4 x5) x6 i
  rw [e2, ed]
  rfl

/-- The decoder's second layer: `max (y1 · fw2 + fb2) 0`. -/
theorem v110_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) :
    val_main_v110 (F := Ideal) x0 x1 x2 x3 x4 x5 x6 x7 x8 x9 = linRelu (val_main_v105 (F := Ideal) x0 x1 x2 x3 x4 x5 x6 x7) x8 x9 := by
  funext i
  rw [val_main_v110_apply, val_main_v109_apply, val_main_v108_apply, val_main_v107_apply, val_main_call2_v0_apply, val_main_call2_cst_apply]
  have e2 : idx_main_v107 (idx_main_v108 i) = ix1 (col i) := funext fun a => Fin.ext (by match a with | ⟨0, _⟩ => rfl)
  have ed : val_main_v106 (F := Ideal) x0 x1 x2 x3 x4 x5 x6 x7 x8 i = mm (val_main_v105 (F := Ideal) x0 x1 x2 x3 x4 x5 x6 x7) x8 i :=
    Cert.LibPlainDot.hostDot_plain_apply 1600000 64 32 none (val_main_v105 (F := Ideal) x0 x1 x2 x3 x4 x5 x6 x7) x8 i
  rw [e2, ed]
  rfl

/-- The decoder's third layer: `max (y2 · fw3 + fb3) 0`. -/
theorem v115_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) :
    val_main_v115 (F := Ideal) x0 x1 x2 x3 x4 x5 x6 x7 x8 x9 x10 x11 = linRelu (val_main_v110 (F := Ideal) x0 x1 x2 x3 x4 x5 x6 x7 x8 x9) x10 x11 := by
  funext i
  rw [val_main_v115_apply, val_main_v114_apply, val_main_v113_apply, val_main_v112_apply, val_main_call3_v0_apply, val_main_call3_cst_apply]
  have e2 : idx_main_v112 (idx_main_v113 i) = ix1 (col i) := funext fun a => Fin.ext (by match a with | ⟨0, _⟩ => rfl)
  have ed : val_main_v111 (F := Ideal) x0 x1 x2 x3 x4 x5 x6 x7 x8 x9 x10 i = mm (val_main_v110 (F := Ideal) x0 x1 x2 x3 x4 x5 x6 x7 x8 x9) x10 i :=
    Cert.LibPlainDot.hostDot_plain_apply 1600000 32 16 none (val_main_v110 (F := Ideal) x0 x1 x2 x3 x4 x5 x6 x7 x8 x9) x10 i
  rw [e2, ed]
  rfl

/-- The decoder's last layer: `y3 · fw4 + fb4`. -/
theorem v119_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x1, .f32⟩ : BufTy).Contents (Elt Ideal)) (x13 : (⟨S1, .f32⟩ : BufTy).Contents (Elt Ideal)) :
    val_main_v119 (F := Ideal) x0 x1 x2 x3 x4 x5 x6 x7 x8 x9 x10 x11 x12 x13 = lin (val_main_v115 (F := Ideal) x0 x1 x2 x3 x4 x5 x6 x7 x8 x9 x10 x11) x12 x13 := by
  funext i
  rw [val_main_v119_apply, val_main_v118_apply, val_main_v117_apply]
  have e2 : idx_main_v117 (idx_main_v118 i) = ix1 (col i) := funext fun a => Fin.ext (by
    match a with
    | ⟨0, _⟩ =>
      have h1 : (i 1).val < 1 := (i 1).isLt
      show (0 : Nat) = (i 1).val
      omega)
  have ed : val_main_v116 (F := Ideal) x0 x1 x2 x3 x4 x5 x6 x7 x8 x9 x10 x11 x12 i = mm (val_main_v115 (F := Ideal) x0 x1 x2 x3 x4 x5 x6 x7 x8 x9 x10 x11) x12 i :=
    Cert.LibPlainDot.hostDot_plain_apply 1600000 16 1 none (val_main_v115 (F := Ideal) x0 x1 x2 x3 x4 x5 x6 x7 x8 x9 x10 x11) x12 i
  rw [e2, ed]
  rfl

/-- The decoder as one function of the edge features and the eight weights and biases. -/
theorem v119_decode (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x1, .f32⟩ : BufTy).Contents (Elt Ideal)) (x13 : (⟨S1, .f32⟩ : BufTy).Contents (Elt Ideal)) :
    val_main_v119 (F := Ideal) x0 x1 x2 x3 x4 x5 x6 x7 x8 x9 x10 x11 x12 x13
      = decode (val_main_v100 (F := Ideal) x0 x1 x2 x3 x4 x5) x6 x7 x8 x9 x10 x11 x12 x13 := by
  rw [v119_eq, v115_eq, v110_eq, v105_eq]
  rfl

end Cert.ReferenceIdeal.RefSpec

end
-- ==== Proof.Mask.lean ====
/-
  Indices in range make the gather's fill mask all ones.

  A row gather with out-of-range rows filled first wraps a negative index `i` to `i + 100000`, then gathers, then
  keeps the gathered row where `0 ≤ wrapped ≤ 99999` and puts the fill value elsewhere. When every index already
  lies in `[0, 100000)` — which the precondition says of every entry of the edge-index array, hence of its two
  rows — the wrap is the identity, both comparisons hold at every entry, their conjunction reduced along the unit
  axis is one everywhere, and the select by that mask broadcast along the rows returns the gathered array itself.
-/
import proofs.«405343_j79405355369095_1_alg».proof.Defs
import proofs.«405343_j79405355369095_1_alg».proof.Proof.Gen.KernelIdeal
import proofs.«405343_j79405355369095_1_alg».proof.Proof.Gen.Pre_finite_inputs
import Idealize.ShloMosaic.PureOps.Ideal
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.KernelIdeal.Mask

open Cert.KernelIdeal Cert.KernelIdeal.Facts₀ Cert.KernelIdeal.Facts
open Idealize.ShloMosaic Idealize.ShloMosaic.TcCoe Idealize.ShloMosaic.ValueIdx Idealize.SL.Sem

/-- The wrap of a possibly negative index: `i + 100000` where `i < 0`, else `i`. -/
abbrev wrapIdx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The wrapped indices as the `[1600000, 1]` column of start indices the gather takes. -/
abbrev colIdx (idx : IVec S1600000 32) : IVec S1600000x1 32 :=
  broadcastInDim S1600000x1 ![0] bcast_S1600000_S1600000x1_0 (wrapIdx idx)

/-- The fill mask: `0 ≤ wrapped ∧ wrapped ≤ 99999`, reduced by `and` along the unit axis. -/
abbrev inBounds (idx : IVec S1600000 32) : IVec S1600000 1 :=
  Host.reduce IntOp.andi
    (andi (cmpi .sge (colIdx idx) (broadcastInDim S1600000x1 ![] bcast_S_S1600000x1 (constantI S_ 32 0#32)))
      (cmpi .sle (colIdx idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Every entry of an index vector lies in `[0, 100000)`, read as a signed word. -/
def InRange (idx : IVec S1600000 32) : Prop := ∀ e : S1600000.Idx, 0 ≤ (idx e).toInt ∧ (idx e).toInt < 100000

/-- Row 0 of the edge-index array (the sources), as both programs slice and reshape it. -/
abbrev srcOf (E : IVec S2x1600000 32) : IVec S1600000 32 :=
  shapeCast S1600000 (extractStridedSlice S1x1600000 ![0, 0] E slices_S2x1600000_S1x1600000_0_0) shapeCasts_S1x1600000_S1600000
/-- Row 1 of the edge-index array (the destinations). -/
abbrev dstOf (E : IVec S2x1600000 32) : IVec S1600000 32 :=
  shapeCast S1600000 (extractStridedSlice S1x1600000 ![1, 0] E slices_S2x1600000_S1x1600000_1_0) shapeCasts_S1x1600000_S1600000

/-- The zero word read signed. -/
theorem toInt_word_zero : (0#32 : BitVec 32).toInt = 0 := by decide
/-- The word `99999` read signed. -/
theorem toInt_word_last : (99999#32 : BitVec 32).toInt = 99999 := by decide
/-- The word `100000` read signed. -/
theorem toInt_word_count : (100000#32 : BitVec 32).toInt = 100000 := by decide

/-- A left fold by `and` that starts at one and meets only ones is one. -/
theorem foldl_andi_ones {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_ones f hf l _ (IntOp.andi_eq_one.2 ⟨hi, hf a⟩)

/-- In range, the wrap is the identity. -/
theorem wrapIdx_eq (idx : IVec S1600000 32) (h : InRange idx) : wrapIdx idx = idx := by
  funext e
  -- the comparison `idx e < 0` is false, since `0 ≤ idx e`
  have hc : IntOp.cmpi .slt (idx e) 0#32 = 0#1 :=
    eq_zero_of_ne_one fun hh => by
      have hlt := IntOp.cmpi_slt.1 hh
      rw [toInt_word_zero] at hlt
      exact absurd (h e).1 (not_le.2 hlt)
  show Scalar.select (IntOp.cmpi .slt (idx e) 0#32) (IntOp.addi (idx e) 100000#32) (idx e) = idx e
  rw [hc, select_zero]

/-- The fill mask of a vector already in range (no wrap): both comparisons hold at every entry of the column, so
    their conjunction folded along the unit axis is one. -/
theorem inBounds_ones_of_inRange (v : IVec S1600000 32) (h : InRange v) (e : S1600000.Idx) :
    Host.reduce IntOp.andi
      (andi (cmpi .sge (broadcastInDim S1600000x1 ![0] bcast_S1600000_S1600000x1_0 v)
          (broadcastInDim S1600000x1 ![] bcast_S_S1600000x1 (constantI S_ 32 0#32)))
        (cmpi .sle (broadcastInDim S1600000x1 ![0] bcast_S1600000_S1600000x1_0 v)
          (broadcastInDim S1600000x1 ![0, 1] bcast_S1x1_S1600000x1_0_1
            (broadcastInDim S1x1 ![1] bcast_S1_S1x1_1 (constantI S1 32 99999#32)))))
      (constantI S_ 1 1#1) reducesTo_S1600000x1_S1600000_d1 h_S_ e = 1#1 := by
  rw [Host.reduce_eq_foldl]
  refine foldl_andi_ones _ (fun i => ?_) _ _ rfl
  -- the column at `i` is an entry of `v`, which is in range
  have hx : 0 ≤ (broadcastInDim S1600000x1 ![0] bcast_S1600000_S1600000x1_0 v i).toInt
      ∧ (broadcastInDim S1600000x1 ![0] bcast_S1600000_S1600000x1_0 v i).toInt < 100000 := h _
  show IntOp.andi (IntOp.cmpi .sge (broadcastInDim S1600000x1 ![0] bcast_S1600000_S1600000x1_0 v i) 0#32)
      (IntOp.cmpi .sle (broadcastInDim S1600000x1 ![0] bcast_S1600000_S1600000x1_0 v i) 99999#32) = 1#1
  refine IntOp.andi_eq_one.2 ⟨IntOp.cmpi_sge.2 ?_, IntOp.cmpi_sle.2 ?_⟩
  · rw [toInt_word_zero]; exact hx.1
  · rw [toInt_word_last]; omega

/-- In range, the fill mask is one at every entry. -/
theorem inBounds_ones (idx : IVec S1600000 32) (h : InRange idx) : ∀ e : S1600000.Idx, inBounds idx e = 1#1 := by
  intro e
  exact inBounds_ones_of_inRange (wrapIdx idx) (by rw [wrapIdx_eq idx h]; exact h) e

/-- A select by a mask broadcast along the rows returns its first branch when the mask is one at every row. -/
theorem select_rows_ones {α : Type} {n w : Nat} (mask : IVec ⟨1, ![n]⟩ 1)
    (hb : (⟨1, ![n]⟩ : Shape).BroadcastsInDim ⟨2, ![n, w]⟩ ![0]) (hm : ∀ e, mask e = 1#1)
    (a b : (⟨2, ![n, w]⟩ : Shape).Idx → α) :
    select (broadcastInDim ⟨2, ![n, w]⟩ ![0] hb mask) a b = a := by
  funext i
  -- the broadcast mask at `i` is the mask at `i`'s row
  have hone : broadcastInDim ⟨2, ![n, w]⟩ ![0] hb mask i = 1#1 := hm _
  show Scalar.select (broadcastInDim ⟨2, ![n, w]⟩ ![0] hb mask i) (a i) (b i) = a i
  rw [hone, select_one]

/-- Under the precondition every entry of the edge-index array lies in `[0, 100000)`: the precondition's last two
    conjuncts are `all (E ≥ 0)` and `all (E < 100000)`, signed. -/
theorem edges_inRange (m : (ℓ : Loc nD τ sig) → Buf (Elt Ideal) ℓ) (hpre : Cert.Pre_KernelIdeal m) (c : Dev nD)
    (i : S2x1600000.Idx) :
    0 ≤ ((m ((c : Thread nD τ).loc main_arg1) : IVec S2x1600000 32) i).toInt
      ∧ ((m ((c : Thread nD τ).loc main_arg1) : IVec S2x1600000 32) i).toInt < 100000 := by
  haveI : Subsingleton Cert.Pre_finite_inputs.S_.Idx := ⟨fun a b => funext fun d => d.elim0⟩
  have h1 := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h1
  obtain ⟨hrest, hlt⟩ := IntOp.andi_eq_one.1 h1
  obtain ⟨-, hge⟩ := IntOp.andi_eq_one.1 hrest
  have hge_i := Host.reduce_andi_all _ _ _ _ _ hge i
  have hlt_i := Host.reduce_andi_all _ _ _ _ _ hlt i
  have h0 : (0#32 : BitVec 32).toInt ≤ ((m ((c : Thread nD τ).loc main_arg1) : IVec S2x1600000 32) i).toInt :=
    IntOp.cmpi_sge.1 hge_i
  have h1' : ((m ((c : Thread nD τ).loc main_arg1) : IVec S2x1600000 32) i).toInt < (100000#32 : BitVec 32).toInt :=
    IntOp.cmpi_slt.1 hlt_i
  rw [toInt_word_zero] at h0
  rw [toInt_word_count] at h1'
  exact ⟨h0, h1'⟩

/-- Under the precondition the sources lie in `[0, 100000)`: row 0 of the array, entry by entry. -/
theorem src_inRange (m : (ℓ : Loc nD τ sig) → Buf (Elt Ideal) ℓ) (hpre : Cert.Pre_KernelIdeal m) (c : Dev nD) :
    InRange (srcOf (m ((c : Thread nD τ).loc main_arg1))) :=
  fun e => edges_inRange m hpre c _

/-- Under the precondition the destinations lie in `[0, 100000)`: row 1 of the array, entry by entry. -/
theorem dst_inRange (m : (ℓ : Loc nD τ sig) → Buf (Elt Ideal) ℓ) (hpre : Cert.Pre_KernelIdeal m) (c : Dev nD) :
    InRange (dstOf (m ((c : Thread nD τ).loc main_arg1))) :=
  fun e => edges_inRange m hpre c _

end Cert.KernelIdeal.Mask

end
-- ==== Proof.KTake.lean ====
/-
  The kernel program's row gather with out-of-range rows filled, and what it is when the indices are in range.

  `take h idx` gathers row `wrap (idx e)` of `h` for every edge `e` and keeps it where the wrapped index lies in
  `[0, 99999]`, putting the fill value elsewhere (the fill is the word `0x7FC00000`, never evaluated here). With every
  index in `[0, 100000)` the mask is one at every edge, so the result is the plain gather of the rows.
-/
import proofs.«405343_j79405355369095_1_alg».proof.Proof.Mask

set_option maxRecDepth 16384

noncomputable section

namespace Cert.KernelIdeal.KTake

open Cert.KernelIdeal Cert.KernelIdeal.Facts₀ Cert.KernelIdeal.Facts Cert.KernelIdeal.Mask
open Idealize.ShloMosaic Idealize.ShloMosaic.TcCoe Idealize.ShloMosaic.ValueIdx Idealize.SL.Sem

/-- The filled row gather over 128 columns. -/
def take128 (h : FVec Ideal S100000x128 .f32) (idx : IVec S1600000 32) : FVec Ideal S1600000x128 .f32 :=
  select (broadcastInDim S1600000x128 ![0] bcast_S1600000_S1600000x128_0 (inBounds idx))
    (Host.gather gather_S100000x128_S1600000x1_S1600000x128_1_0_n_n_0_1_1128 h (colIdx idx))
    (broadcastInDim S1600000x128 ![] bcast_S_S1600000x128 (constant S_ .f32 0x7FC00000#32))

/-- The filled row gather over 64 columns. -/
def take64 (h : FVec Ideal S100000x64 .f32) (idx : IVec S1600000 32) : FVec Ideal S1600000x64 .f32 :=
  select (broadcastInDim S1600000x64 ![0] bcast_S1600000_S1600000x64_0 (inBounds idx))
    (Host.gather gather_S100000x64_S1600000x1_S1600000x64_1_0_n_n_0_1_164 h (colIdx idx))
    (broadcastInDim S1600000x64 ![] bcast_S_S1600000x64 (constant S_ .f32 0x7FC00000#32))

/-- In range, the filled gather is the gather. -/
theorem take128_eq (h : FVec Ideal S100000x128 .f32) (idx : IVec S1600000 32) (hr : InRange idx) :
    take128 h idx = Host.gather gather_S100000x128_S1600000x1_S1600000x128_1_0_n_n_0_1_1128 h (colIdx idx) :=
  select_rows_ones (n := 1600000) (w := 128) (inBounds idx) bcast_S1600000_S1600000x128_0 (inBounds_ones idx hr) _ _

/-- In range, the filled gather is the gather. -/
theorem take64_eq (h : FVec Ideal S100000x64 .f32) (idx : IVec S1600000 32) (hr : InRange idx) :
    take64 h idx = Host.gather gather_S100000x64_S1600000x1_S1600000x64_1_0_n_n_0_1_164 h (colIdx idx) :=
  select_rows_ones (n := 1600000) (w := 64) (inBounds idx) bcast_S1600000_S1600000x64_0 (inBounds_ones idx hr) _ _

end Cert.KernelIdeal.KTake

end
-- ==== Proof.Region0.lean ====
/-
  The first projection, `x · W1`, as the first kernel leaves it.

  The grid has 20 points; point `t` loads rows `5000 t … 5000 t + 4999` of the `100000 × 128` features and the whole
  `128 × 128` weight, and writes back the same rows of the product (the change of float format on the way into the
  matrix unit is the identity over the extended reals, and the accumulator starts at zero). The row blocks tile
  the array, so after the last point every entry `(r, c)` holds `∑ k, x (r, k) * W (k, c)`.
-/
import proofs.«405343_j79405355369095_1_alg».proof.Proof.Gen.KernelIdeal.Frame
import proofs.«405343_j79405355369095_1_alg».proof.Proof.Spec
import proofs.«405343_j79405355369095_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The matrix unit's result at entry `(p, q)`: both changes of float format are the identity over the extended
    reals and the accumulator starts at zero, so it is the plain sum over the contracted axis. -/
theorem pay_apply (x0 : Vec Ideal S5000x128 .f32) (x1 : Vec Ideal S128x128 .f32) (p : Fin 5000) (q : Fin 128) :
    (k0_pay1 (F := Ideal) x0 x1) (ix2 p q) = ∑ k : Fin 128, x0 (ix2 p k) * x1 (ix2 k q) := by
  unfold k0_pay1
  exact (Cert.LibPlainDot.matmul_plain_zero_apply 5000 128 128 none _ _ (ix2 p q))

/-- What the body leaves in the output block, at entry `(p, q)`: its one store covers the block and its loads read
    the whole input blocks. -/
theorem out_apply (x0 : Vec Ideal S5000x128 .f32) (x1 : Vec Ideal S128x128 .f32) (p : Fin 5000) (q : Fin 128) :
    (out0_2 (F := Ideal) x0 x1) (ix2 p q) = ∑ k : Fin 128, x0 (ix2 p k) * x1 (ix2 k q) := by
  unfold out0_2
  rw [View.canon_unit_zero zero_offsets]
  simp only [View.ld_unit_zero (S := S5000x128) zero_offsets, View.ld_unit_zero (S := S128x128) zero_offsets]
  exact pay_apply x0 x1 p q

/-- The block indices over the grid: the row blocks of the features and of the product are at `(t, 0)`, the weight's
    one block at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the features' block at point `t` is row `5000 t + p` of the features. -/
theorem x_block_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := idx_facts t
  show V c main_arg0 (((cfg0.win 0).blk t).view.emb (ix2 p k)) = V c main_arg0 (ix2 r k)
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight's block at every point is the whole weight. -/
theorem w_block_apply (c : Dev nD) (t : Fin cfg0.N) (k : Fin 128) (q q' : Fin 128) (hq : q'.val = q.val) :
    (iblk0 V c 1 t : Vec Ideal S128x128 .f32) (ix2 k q) = (V c main_arg2 : S128x128.Idx → EReal) (ix2 k q') := by
  obtain ⟨-, -, e2, e3, -⟩ := idx_facts t
  show V c main_arg2 (((cfg0.win 1).blk t).view.emb (ix2 k q)) = V c main_arg2 (ix2 k q')
  congr 1
  funext a; apply Fin.ext
  match a with
  | ⟨0, _⟩ => show win0_1.index t (0 : Fin 2) * 128 + 1 * k.val = k.val; omega
  | ⟨1, _⟩ => show win0_1.index t (1 : Fin 2) * 128 + 1 * q.val = q'.val; omega

/-- What point `t` writes back is block `t` of the product of the arrays the region finds. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 (F := Ideal) V c).after 2 t) = _
  rw [after0_2]
  refine funext fun j => ?_
  obtain ⟨p, q, rfl⟩ : ∃ (p : Fin 5000) (q : Fin 128), j = ix2 p q := ⟨j 0, j 1, eq_ix2 j⟩
  obtain ⟨-, -, -, -, e4, e5⟩ := idx_facts t
  show out0_2 (iblk0 V c 0 t) (iblk0 V c 1 t) (ix2 p q)
    = Cert.Spec.mm (V c main_arg0) (V c main_arg2) (((cfg0.win 2).blk t).view.emb (ix2 p q))
  refine (out_apply (iblk0 V c 0 t) (iblk0 V c 1 t) p q).trans ?_
  unfold Cert.Spec.mm
  refine Finset.sum_congr rfl fun k _ => ?_
  rw [x_block_apply V c t p k (Cert.Spec.row (((cfg0.win 2).blk t).view.emb (ix2 p q)))
      (by show win0_2.index t (0 : Fin 2) * 5000 + 1 * p.val = t.val * 5000 + p.val; omega),
    w_block_apply V c t k q (Cert.Spec.col (((cfg0.win 2).blk t).view.emb (ix2 p q)))
      (by show win0_2.index t (1 : Fin 2) * 128 + 1 * q.val = q.val; omega)]

/-- An entry of the product array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The row blocks tile the array: entry `(r, c)` is in the block of point `r / 5000`. -/
theorem cover (i : S100000x128.Idx) :
    ∃ t : Fin cfg0.N, (cfg0.win 2).flush t = true ∧ i ∈ ((cfg0.win 2).blk t).view.set := by
  have hN : cfg0.N = 20 := N_0
  have hi0 : (i 0).val < 100000 := idx2_lt0 i
  have hi1 : (i 1).val < 128 := idx2_lt1 i
  have ht : (i 0).val / 5000 < cfg0.N := by omega
  obtain ⟨-, -, -, -, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- After the last grid point the output array is the whole-array function of the region's input arrays. -/
theorem arr (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => flushed_eq V c t) cover

end Cert.KernelIdeal.Region0

end
-- ==== Proof.ChainA.lean ====
/-
  The first two segment boundaries of the idealized kernel program, read back to the launch arguments.

  The first host stretch slices the edge-index array into sources and destinations, counts degrees by a scatter of
  ones, and from them builds the column of inverse degrees and the per-edge coefficient
  `deg[src]^(-1/2) · deg[dst]^(-1/2)`; the reference performs the same operations, so each of these buffers holds the
  reference's stage of the same launch argument. The first kernel region then leaves the product `x · W1`, which is
  the reference's first projection, and changes no other buffer.
-/
import proofs.«405343_j79405355369095_1_alg».proof.Proof.Gen.KernelIdeal.Frame
import proofs.«405343_j79405355369095_1_alg».proof.Proof.Gen.ReferenceIdeal.Read
import proofs.«405343_j79405355369095_1_alg».proof.Proof.Spec
import proofs.«405343_j79405355369095_1_alg».proof.Proof.RefSpec
import proofs.«405343_j79405355369095_1_alg».proof.Proof.KTake
import proofs.«405343_j79405355369095_1_alg».proof.Proof.Region0
import Idealize.ShloMosaic.Lib.StableHlo.Run
import Idealize.ShloMosaic.PureOps.Ideal

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of the node features. -/
abbrev a0 (c : Dev nD) : (⟨S100000x128, .f32⟩ : BufTy).Contents (Elt Ideal) := m ((c : Thread nD τ).loc main_arg0)
/-- The launch contents of the edge indices. -/
abbrev a1 (c : Dev nD) : (⟨S2x1600000, .i32⟩ : BufTy).Contents (Elt Ideal) := m ((c : Thread nD τ).loc main_arg1)
/-- The launch contents of the first layer's weight. -/
abbrev a2 (c : Dev nD) : (⟨S128x128, .f32⟩ : BufTy).Contents (Elt Ideal) := m ((c : Thread nD τ).loc main_arg2)
/-- The launch contents of the first layer's bias. -/
abbrev a3 (c : Dev nD) : (⟨S128, .f32⟩ : BufTy).Contents (Elt Ideal) := m ((c : Thread nD τ).loc main_arg3)
/-- The launch contents of the second layer's weight. -/
abbrev a4 (c : Dev nD) : (⟨S128x64, .f32⟩ : BufTy).Contents (Elt Ideal) := m ((c : Thread nD τ).loc main_arg4)
/-- The launch contents of the second layer's bias. -/
abbrev a5 (c : Dev nD) : (⟨S64, .f32⟩ : BufTy).Contents (Elt Ideal) := m ((c : Thread nD τ).loc main_arg5)
/-- The launch contents of the decoder's first weight. -/
abbrev a6 (c : Dev nD) : (⟨S128x64, .f32⟩ : BufTy).Contents (Elt Ideal) := m ((c : Thread nD τ).loc main_arg6)
/-- The launch contents of the decoder's first bias. -/
abbrev a7 (c : Dev nD) : (⟨S64, .f32⟩ : BufTy).Contents (Elt Ideal) := m ((c : Thread nD τ).loc main_arg7)
/-- The launch contents of the decoder's second weight. -/
abbrev a8 (c : Dev nD) : (⟨S64x32, .f32⟩ : BufTy).Contents (Elt Ideal) := m ((c : Thread nD τ).loc main_arg8)
/-- The launch contents of the decoder's second bias. -/
abbrev a9 (c : Dev nD) : (⟨S32, .f32⟩ : BufTy).Contents (Elt Ideal) := m ((c : Thread nD τ).loc main_arg9)
/-- The launch contents of the decoder's third weight. -/
abbrev a10 (c : Dev nD) : (⟨S32x16, .f32⟩ : BufTy).Contents (Elt Ideal) := m ((c : Thread nD τ).loc main_arg10)
/-- The launch contents of the decoder's third bias. -/
abbrev a11 (c : Dev nD) : (⟨S16, .f32⟩ : BufTy).Contents (Elt Ideal) := m ((c : Thread nD τ).loc main_arg11)
/-- The launch contents of the decoder's last weight. -/
abbrev a12 (c : Dev nD) : (⟨S16x1, .f32⟩ : BufTy).Contents (Elt Ideal) := m ((c : Thread nD τ).loc main_arg12)
/-- The launch contents of the decoder's last bias. -/
abbrev a13 (c : Dev nD) : (⟨S1, .f32⟩ : BufTy).Contents (Elt Ideal) := m ((c : Thread nD τ).loc main_arg13)

/-! ## After the first host stretch -/

/-- The source indices, as the reference computes them from the edge-index array. -/
theorem W1_v1 (c : Dev nD) : W1 m ρ c (Proc.devRef .tc main_v1) = Cert.ReferenceIdeal.Read.val_main_v1 (F := Ideal) (a1 m c) := by
  dsimp only [W1, hostOps0]
  after_results_simp
  rfl

/-- The destination indices, as the reference computes them from the edge-index array. -/
theorem W1_v3 (c : Dev nD) : W1 m ρ c (Proc.devRef .tc main_v3) = Cert.ReferenceIdeal.Read.val_main_v3 (F := Ideal) (a1 m c) := by
  dsimp only [W1, hostOps0]
  after_results_simp
  rfl

/-- The column of inverse degrees, as the reference computes them from the edge-index array. -/
theorem W1_v13 (c : Dev nD) : W1 m ρ c (Proc.devRef .tc main_v13) = Cert.ReferenceIdeal.Read.val_main_v42 (F := Ideal) (a1 m c) := by
  dsimp only [W1, hostOps0]
  after_results_simp
  rfl

/-- The edge coefficients, as the reference computes them from the edge-index array. -/
theorem W1_v28 (c : Dev nD) : W1 m ρ c (Proc.devRef .tc main_v28) = Cert.ReferenceIdeal.Read.val_main_v28 (F := Ideal) (a1 m c) := by
  dsimp only [W1, hostOps0]
  after_results_simp
  rfl

/-- No operation of the stretch writes the node features. -/
theorem W1_arg0 (c : Dev nD) : W1 m ρ c (Proc.devRef .tc main_arg0) = a0 m c := by
  dsimp only [W1, hostOps0]
  after_results_simp

/-- No operation of the stretch writes the first layer's weight. -/
theorem W1_arg2 (c : Dev nD) : W1 m ρ c (Proc.devRef .tc main_arg2) = a2 m c := by
  dsimp only [W1, hostOps0]
  after_results_simp

/-- No operation of the stretch writes the first layer's bias. -/
theorem W1_arg3 (c : Dev nD) : W1 m ρ c (Proc.devRef .tc main_arg3) = a3 m c := by
  dsimp only [W1, hostOps0]
  after_results_simp

/-- No operation of the stretch writes the second layer's weight. -/
theorem W1_arg4 (c : Dev nD) : W1 m ρ c (Proc.devRef .tc main_arg4) = a4 m c := by
  dsimp only [W1, hostOps0]
  after_results_simp

/-- No operation of the stretch writes the second layer's bias. -/
theorem W1_arg5 (c : Dev nD) : W1 m ρ c (Proc.devRef .tc main_arg5) = a5 m c := by
  dsimp only [W1, hostOps0]
  after_results_simp

/-- No operation of the stretch writes the decoder's first weight. -/
theorem W1_arg6 (c : Dev nD) : W1 m ρ c (Proc.devRef .tc main_arg6) = a6 m c := by
  dsimp only [W1, hostOps0]
  after_results_simp

/-- No operation of the stretch writes the decoder's first bias. -/
theorem W1_arg7 (c : Dev nD) : W1 m ρ c (Proc.devRef .tc main_arg7) = a7 m c := by
  dsimp only [W1, hostOps0]
  after_results_simp

/-- No operation of the stretch writes the decoder's second weight. -/
theorem W1_arg8 (c : Dev nD) : W1 m ρ c (Proc.devRef .tc main_arg8) = a8 m c := by
  dsimp only [W1, hostOps0]
  after_results_simp

/-- No operation of the stretch writes the decoder's second bias. -/
theorem W1_arg9 (c : Dev nD) : W1 m ρ c (Proc.devRef .tc main_arg9) = a9 m c := by
  dsimp only [W1, hostOps0]
  after_results_simp

/-- No operation of the stretch writes the decoder's third weight. -/
theorem W1_arg10 (c : Dev nD) : W1 m ρ c (Proc.devRef .tc main_arg10) = a10 m c := by
  dsimp only [W1, hostOps0]
  after_results_simp

/-- No operation of the stretch writes the decoder's third bias. -/
theorem W1_arg11 (c : Dev nD) : W1 m ρ c (Proc.devRef .tc main_arg11) = a11 m c := by
  dsimp only [W1, hostOps0]
  after_results_simp

/-- No operation of the stretch writes the decoder's last weight. -/
theorem W1_arg12 (c : Dev nD) : W1 m ρ c (Proc.devRef .tc main_arg12) = a12 m c := by
  dsimp only [W1, hostOps0]
  after_results_simp

/-- No operation of the stretch writes the decoder's last bias. -/
theorem W1_arg13 (c : Dev nD) : W1 m ρ c (Proc.devRef .tc main_arg13) = a13 m c := by
  dsimp only [W1, hostOps0]
  after_results_simp

/-! ## After the first kernel region -/

/-- The region's output is the first projection `x · W1`, the reference's own. -/
theorem W2_v29 (c : Dev nD) :
    W2 m ρ c (Proc.devRef .tc main_v29) = Cert.ReferenceIdeal.Read.val_main_v13 (F := Ideal) (a0 m c) (a2 m c) := by
  refine (W2_arr m ρ c 2).trans ?_
  rw [Cert.KernelIdeal.Region0.arr (V1 m ρ) c, Cert.ReferenceIdeal.RefSpec.v13_eq]
  have h0 : V1 m ρ c main_arg0 = a0 m c := W1_arg0 m ρ c
  have h2 : V1 m ρ c main_arg2 = a2 m c := W1_arg2 m ρ c
  rw [h0, h2]

/-- The region leaves the source indices as they were. -/
theorem W2_v1 (c : Dev nD) : W2 m ρ c (Proc.devRef .tc main_v1) = Cert.ReferenceIdeal.Read.val_main_v1 (F := Ideal) (a1 m c) :=
  (W2_of_ne m ρ c main_v1 (by decide)).trans (W1_v1 m ρ c)

/-- The region leaves the destination indices as they were. -/
theorem W2_v3 (c : Dev nD) : W2 m ρ c (Proc.devRef .tc main_v3) = Cert.ReferenceIdeal.Read.val_main_v3 (F := Ideal) (a1 m c) :=
  (W2_of_ne m ρ c main_v3 (by decide)).trans (W1_v3 m ρ c)

/-- The region leaves the column of inverse degrees as they were. -/
theorem W2_v13 (c : Dev nD) : W2 m ρ c (Proc.devRef .tc main_v13) = Cert.ReferenceIdeal.Read.val_main_v42 (F := Ideal) (a1 m c) :=
  (W2_of_ne m ρ c main_v13 (by decide)).trans (W1_v13 m ρ c)

/-- The region leaves the edge coefficients as they were. -/
theorem W2_v28 (c : Dev nD) : W2 m ρ c (Proc.devRef .tc main_v28) = Cert.ReferenceIdeal.Read.val_main_v28 (F := Ideal) (a1 m c) :=
  (W2_of_ne m ρ c main_v28 (by decide)).trans (W1_v28 m ρ c)

/-- The region leaves the first layer's bias as launched. -/
theorem W2_arg3 (c : Dev nD) : W2 m ρ c (Proc.devRef .tc main_arg3) = a3 m c :=
  (W2_of_ne m ρ c main_arg3 (by decide)).trans (W1_arg3 m ρ c)

/-- The region leaves the second layer's weight as launched. -/
theorem W2_arg4 (c : Dev nD) : W2 m ρ c (Proc.devRef .tc main_arg4) = a4 m c :=
  (W2_of_ne m ρ c main_arg4 (by decide)).trans (W1_arg4 m ρ c)

/-- The region leaves the second layer's bias as launched. -/
theorem W2_arg5 (c : Dev nD) : W2 m ρ c (Proc.devRef .tc main_arg5) = a5 m c :=
  (W2_of_ne m ρ c main_arg5 (by decide)).trans (W1_arg5 m ρ c)

/-- The region leaves the decoder's first weight as launched. -/
theorem W2_arg6 (c : Dev nD) : W2 m ρ c (Proc.devRef .tc main_arg6) = a6 m c :=
  (W2_of_ne m ρ c main_arg6 (by decide)).trans (W1_arg6 m ρ c)

/-- The region leaves the decoder's first bias as launched. -/
theorem W2_arg7 (c : Dev nD) : W2 m ρ c (Proc.devRef .tc main_arg7) = a7 m c :=
  (W2_of_ne m ρ c main_arg7 (by decide)).trans (W1_arg7 m ρ c)

/-- The region leaves the decoder's second weight as launched. -/
theorem W2_arg8 (c : Dev nD) : W2 m ρ c (Proc.devRef .tc main_arg8) = a8 m c :=
  (W2_of_ne m ρ c main_arg8 (by decide)).trans (W1_arg8 m ρ c)

/-- The region leaves the decoder's second bias as launched. -/
theorem W2_arg9 (c : Dev nD) : W2 m ρ c (Proc.devRef .tc main_arg9) = a9 m c :=
  (W2_of_ne m ρ c main_arg9 (by decide)).trans (W1_arg9 m ρ c)

/-- The region leaves the decoder's third weight as launched. -/
theorem W2_arg10 (c : Dev nD) : W2 m ρ c (Proc.devRef .tc main_arg10) = a10 m c :=
  (W2_of_ne m ρ c main_arg10 (by decide)).trans (W1_arg10 m ρ c)

/-- The region leaves the decoder's third bias as launched. -/
theorem W2_arg11 (c : Dev nD) : W2 m ρ c (Proc.devRef .tc main_arg11) = a11 m c :=
  (W2_of_ne m ρ c main_arg11 (by decide)).trans (W1_arg11 m ρ c)

/-- The region leaves the decoder's last weight as launched. -/
theorem W2_arg12 (c : Dev nD) : W2 m ρ c (Proc.devRef .tc main_arg12) = a12 m c :=
  (W2_of_ne m ρ c main_arg12 (by decide)).trans (W1_arg12 m ρ c)

/-- The region leaves the decoder's last bias as launched. -/
theorem W2_arg13 (c : Dev nD) : W2 m ρ c (Proc.devRef .tc main_arg13) = a13 m c :=
  (W2_of_ne m ρ c main_arg13 (by decide)).trans (W1_arg13 m ρ c)

end Cert.KernelIdeal.Chain

end
-- ==== Proof.ChainTake.lean ====
/-
  The four filled row gathers of the idealized kernel program, each as one function of the stretch's entry contents.

  Each of the four stretches that the outlined gather prints to computes, from whatever the buffers hold when it is
  entered, the filled gather of one array's rows at one index vector. Its operations pass their values through the
  buffers' types and back, which changes nothing; with those passages removed the stretch's composed term is the
  filled gather as defined.
-/
import proofs.«405343_j79405355369095_1_alg».proof.Proof.Gen.KernelIdeal.Frame
import proofs.«405343_j79405355369095_1_alg».proof.Proof.Gen.ReferenceIdeal.Read
import proofs.«405343_j79405355369095_1_alg».proof.Proof.Spec
import proofs.«405343_j79405355369095_1_alg».proof.Proof.RefSpec
import proofs.«405343_j79405355369095_1_alg».proof.Proof.KTake
import Idealize.ShloMosaic.Lib.StableHlo.Run
import Idealize.ShloMosaic.PureOps.Ideal

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Contents carried to a buffer's type and back are the contents. -/
theorem ofBuf_toBuf {T : BufTy} (x : TRef sig T) (v : T.Contents (Elt Ideal)) : x.ofBuf (x.toBuf v) = v := by
  obtain ⟨r, h, _, _⟩ := x
  subst h
  rfl

/-- Contents of `main_v1`'s buffer are contents at its value's type. -/
theorem ofBuf_v1 (v : (Proc.devRef (τ := τ) .tc main_v1).ty.Contents (Elt Ideal)) :
    ((TRef.of main_v1 : TRef sig ⟨S1600000, .i32⟩).ofBuf v : (⟨S1600000, .i32⟩ : BufTy).Contents (Elt Ideal)) = v := rfl

/-- Contents of `main_v3`'s buffer are contents at its value's type. -/
theorem ofBuf_v3 (v : (Proc.devRef (τ := τ) .tc main_v3).ty.Contents (Elt Ideal)) :
    ((TRef.of main_v3 : TRef sig ⟨S1600000, .i32⟩).ofBuf v : (⟨S1600000, .i32⟩ : BufTy).Contents (Elt Ideal)) = v := rfl

/-- Contents of `main_v29`'s buffer are contents at its value's type. -/
theorem ofBuf_v29 (v : (Proc.devRef (τ := τ) .tc main_v29).ty.Contents (Elt Ideal)) :
    ((TRef.of main_v29 : TRef sig ⟨S100000x128, .f32⟩).ofBuf v : (⟨S100000x128, .f32⟩ : BufTy).Contents (Elt Ideal)) = v := rfl

/-- Contents of `main_v38`'s buffer are contents at its value's type. -/
theorem ofBuf_v38 (v : (Proc.devRef (τ := τ) .tc main_v38).ty.Contents (Elt Ideal)) :
    ((TRef.of main_v38 : TRef sig ⟨S100000x64, .f32⟩).ofBuf v : (⟨S100000x64, .f32⟩ : BufTy).Contents (Elt Ideal)) = v := rfl

/-- Contents of `main_v46`'s buffer are contents at its value's type. -/
theorem ofBuf_v46 (v : (Proc.devRef (τ := τ) .tc main_v46).ty.Contents (Elt Ideal)) :
    ((TRef.of main_v46 : TRef sig ⟨S100000x64, .f32⟩).ofBuf v : (⟨S100000x64, .f32⟩ : BufTy).Contents (Elt Ideal)) = v := rfl

/-- Contents at `main_v30`'s value type are contents of its buffer. -/
theorem toBuf_v30 (v : (⟨S1600000x128, .f32⟩ : BufTy).Contents (Elt Ideal)) :
    ((TRef.of main_v30 : TRef sig ⟨S1600000x128, .f32⟩).toBuf v : (Proc.devRef (τ := τ) .tc main_v30).ty.Contents (Elt Ideal)) = v := rfl

/-- Contents at `main_v39`'s value type are contents of its buffer. -/
theorem toBuf_v39 (v : (⟨S1600000x64, .f32⟩ : BufTy).Contents (Elt Ideal)) :
    ((TRef.of main_v39 : TRef sig ⟨S1600000x64, .f32⟩).toBuf v : (Proc.devRef (τ := τ) .tc main_v39).ty.Contents (Elt Ideal)) = v := rfl

/-- Contents at `main_v47`'s value type are contents of its buffer. -/
theorem toBuf_v47 (v : (⟨S1600000x64, .f32⟩ : BufTy).Contents (Elt Ideal)) :
    ((TRef.of main_v47 : TRef sig ⟨S1600000x64, .f32⟩).toBuf v : (Proc.devRef (τ := τ) .tc main_v47).ty.Contents (Elt Ideal)) = v := rfl

/-- Contents at `main_v48`'s value type are contents of its buffer. -/
theorem toBuf_v48 (v : (⟨S1600000x64, .f32⟩ : BufTy).Contents (Elt Ideal)) :
    ((TRef.of main_v48 : TRef sig ⟨S1600000x64, .f32⟩).toBuf v : (Proc.devRef (τ := τ) .tc main_v48).ty.Contents (Elt Ideal)) = v := rfl

/-- The second stretch: the filled gather of the first projection's rows at the sources. -/
theorem take_v30 (V : Valuation τ sig (Elt Ideal)) :
    StableHlo.after hostOps1 V (Proc.devRef .tc main_v30)
      = Cert.KernelIdeal.KTake.take128 (V (Proc.devRef .tc main_v29)) (V (Proc.devRef .tc main_v1)) := by
  dsimp only [hostOps1]
  after_results_simp
  simp only [ofBuf_toBuf]
  rw [toBuf_v30]
  simp only [ofBuf_v29, ofBuf_v1]
  rfl

/-- The fourth stretch: the filled gather of the second projection's rows at the sources. -/
theorem take_v39 (V : Valuation τ sig (Elt Ideal)) :
    StableHlo.after hostOps3 V (Proc.devRef .tc main_v39)
      = Cert.KernelIdeal.KTake.take64 (V (Proc.devRef .tc main_v38)) (V (Proc.devRef .tc main_v1)) := by
  dsimp only [hostOps3]
  after_results_simp
  simp only [ofBuf_toBuf]
  rw [toBuf_v39]
  simp only [ofBuf_v38, ofBuf_v1]
  rfl

/-- The sixth stretch: the filled gather of the second layer's rows at the sources. -/
theorem take_v47 (V : Valuation τ sig (Elt Ideal)) :
    StableHlo.after hostOps4 V (Proc.devRef .tc main_v47)
      = Cert.KernelIdeal.KTake.take64 (V (Proc.devRef .tc main_v46)) (V (Proc.devRef .tc main_v1)) := by
  dsimp only [hostOps4]
  after_results_simp
  simp only [ofBuf_toBuf]
  rw [toBuf_v47]
  simp only [ofBuf_v46, ofBuf_v1]
  rfl

/-- The seventh stretch: the filled gather of the second layer's rows at the destinations. -/
theorem take_v48 (V : Valuation τ sig (Elt Ideal)) :
    StableHlo.after hostOps4_1 V (Proc.devRef .tc main_v48)
      = Cert.KernelIdeal.KTake.take64 (V (Proc.devRef .tc main_v46)) (V (Proc.devRef .tc main_v3)) := by
  dsimp only [hostOps4_1]
  after_results_simp
  simp only [ofBuf_toBuf]
  rw [toBuf_v48]
  simp only [ofBuf_v46, ofBuf_v3]
  rfl

end Cert.KernelIdeal.Chain

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.Region1.lean ====
/-
  The first layer's combine, clipped: `max (agg + h · (1/deg) + b) 0`, as the second kernel leaves it.

  Point `t` of the 20 loads rows `5000 t … 5000 t + 4999` of the aggregate, of the projected features and of the
  `100000 × 1` column `1/deg`, and the whole bias vector; the column is broadcast along each row and the bias down
  each column. Entry `(r, c)` of the block is `max ((agg (r, c) + h (r, c) * d (r, 0)) + b c) 0`; the row blocks tile the
  array.
-/
import proofs.«405343_j79405355369095_1_alg».proof.Proof.Gen.KernelIdeal.Frame
import proofs.«405343_j79405355369095_1_alg».proof.Proof.Spec
import proofs.«405343_j79405355369095_1_alg».proof.Proof.LibPlainDot
import proofs.«405343_j79405355369095_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The zero offsets of a rank-2 whole-buffer access, however they are spelt. -/
theorem hz2 : (![0, 0] : Fin 2 → Nat) = fun _ => 0 := funext fun a => by fin_cases a <;> rfl
/-- The zero offset of a rank-1 whole-buffer access. -/
theorem hz1 : (![0] : Fin 1 → Nat) = fun _ => 0 := funext fun a => by fin_cases a <;> rfl

/-- The body's value at entry `(p, q)` of its block: the aggregate plus the features scaled by the row's column entry,
    plus the bias at the column, clipped below at zero. -/
theorem pay_apply (x0 x1 : Vec Ideal S5000x128 .f32) (x2 : Vec Ideal S5000x1 .f32) (x3 : Vec Ideal S128 .f32)
    (p : Fin 5000) (q : Fin 128) :
    (k1_pay1 (F := Ideal) x0 x1 x2 x3) (ix2 p q)
      = max ((x0 (ix2 p q) + x1 (ix2 p q) * x2 (ix2 p (0 : Fin 1))) + x3 (ix1 q)) Cert.Spec.zeroW := by
  unfold k1_pay1
  show max ((shapeCast S5000x128 x0 shapeCasts_S5000x128_S5000x128 (ix2 p q)
        + shapeCast S5000x128 x1 shapeCasts_S5000x128_S5000x128 (ix2 p q)
          * broadcastTo S5000x128 (shapeCast S5000x1 x2 shapeCasts_S5000x1_S5000x1) broadcasts_S5000x1_S5000x128 (ix2 p q))
      + broadcastTo S5000x128 (shapeCast S1x128 x3 shapeCasts_S128_S1x128) broadcasts_S1x128_S5000x128 (ix2 p q))
      (Ideal.ofBits .f32 0x00000000#32) = _
  rw [shapeCast_self, shapeCast_self, shapeCast_self, Cert.Columns.broadcastTo_a1_ab_apply,
    broadcastTo_1b_ab_apply, shapeCast_a_1a_apply]

/-- The printed index maps, decided over the grid: the three row-blocked inputs and the output sit at block row `t`,
    block column `0`; the bias window stays at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The aggregate's block at point `t` is rows `5000 t … 5000 t + 4999` of the aggregate. -/
theorem blk_agg (c : Dev nD) (t : Fin cfg1.N) (p : Fin 5000) (q : Fin 128) (r : Fin 100000)
    (hr : r.val = t.val * 5000 + p.val) :
    (iblk1 V c 0 t : Vec Ideal S5000x128 .f32) (ix2 p q) = (V c main_v36 : S100000x128.Idx → EReal) (ix2 r q) := by
  obtain ⟨e0, e1, -⟩ := idx_facts t
  unfold iblk1
  rw [View.read_apply]
  show V c main_v36 _ = V c main_v36 _
  congr 1
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- The features' block at point `t` is the same rows of the projected features. -/
theorem blk_h (c : Dev nD) (t : Fin cfg1.N) (p : Fin 5000) (q : Fin 128) (r : Fin 100000)
    (hr : r.val = t.val * 5000 + p.val) :
    (iblk1 V c 1 t : Vec Ideal S5000x128 .f32) (ix2 p q) = (V c main_v29 : S100000x128.Idx → EReal) (ix2 r q) := by
  obtain ⟨-, -, e0, e1, -⟩ := idx_facts t
  unfold iblk1
  rw [View.read_apply]
  show V c main_v29 _ = V c main_v29 _
  congr 1
  funext a
  apply Fin.ext
  match a with
  | ⟨0, _⟩ => show win1_1.index t (0 : Fin 2) * 5000 + 1 * p.val = r.val; omega
  | ⟨1, _⟩ => show win1_1.index t (1 : Fin 2) * 128 + 1 * q.val = q.val; omega

/-- The column's block at point `t` is the same rows of the column. -/
theorem blk_d (c : Dev nD) (t : Fin cfg1.N) (p : Fin 5000) (r : Fin 100000)
    (hr : r.val = t.val * 5000 + p.val) :
    (iblk1 V c 2 t : Vec Ideal S5000x1 .f32) (ix2 p (0 : Fin 1)) = (V c main_v13 : S100000x1.Idx → EReal) (ix2 r (0 : Fin 1)) := by
  obtain ⟨-, -, -, -, e0, e1, -⟩ := idx_facts t
  unfold iblk1
  rw [View.read_apply]
  show V c main_v13 _ = V c main_v13 _
  congr 1
  funext a
  apply Fin.ext
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- The bias window's block at every point is the whole bias vector. -/
theorem blk_b (c : Dev nD) (t : Fin cfg1.N) (q : Fin 128) :
    (iblk1 V c 3 t : Vec Ideal S128 .f32) (ix1 q) = (V c main_arg3 : S128.Idx → EReal) (ix1 q) := by
  obtain ⟨-, -, -, -, -, -, e0, -⟩ := idx_facts t
  unfold iblk1
  rw [View.read_apply]
  show V c main_arg3 _ = V c main_arg3 _
  congr 1
  funext a
  apply Fin.ext
  match a with
  | ⟨0, _⟩ => show win1_3.index t (0 : Fin 1) * 128 + 1 * q.val = q.val; omega

/-- What the region's output array holds in the end, as a function of the region's four input arrays. -/
abbrev G (c : Dev nD) : S100000x128.Idx → EReal :=
  Cert.Spec.combineRelu (V c main_v36) (V c main_v29) (V c main_v13) (V c main_arg3)

/-- What point `t` writes back is block `t` of the clipped combine of the input arrays. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz2]
  simp only [View.ld_unit_zero (S := S5000x128) hz2, View.ld_unit_zero (S := S5000x1) hz2, View.ld_unit_zero (S := S128) hz1]
  obtain ⟨-, -, -, -, -, -, -, e0, e1⟩ := idx_facts t
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  have hlt : t.val * 5000 + p.val < 100000 := by have := p.isLt; omega
  have hemb : ((cfg1.win 4).blk t).view.emb (ix2 p q) = (ix2 (⟨t.val * 5000 + p.val, hlt⟩ : Fin 100000) q : S100000x128.Idx) := by
    funext a
    apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [View.read_apply]
  show (k1_pay1 (F := Ideal) (iblk1 V c 0 t) (iblk1 V c 1 t) (iblk1 V c 2 t) (iblk1 V c 3 t)) (ix2 p q)
    = G V c (((cfg1.win 4).blk t).view.emb (ix2 p q))
  rw [hemb, pay_apply, blk_agg V c t p q ⟨t.val * 5000 + p.val, hlt⟩ rfl, blk_h V c t p q ⟨t.val * 5000 + p.val, hlt⟩ rfl,
    blk_d V c t p ⟨t.val * 5000 + p.val, hlt⟩ rfl, blk_b V c t q]
  rfl

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v37).slice (win1_4.rect t)).set ↔ _
  rw [View.set_slice_whole, Rect.mem_set_unit]
  exact Iff.rfl

/-- Row `r` of the array is in the block of point `r / 5000`: the twenty row blocks tile the array. -/
theorem cover (i : S100000x128.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  have hlt : (i 0).val / 5000 < cfg1.N := by rw [hN]; omega
  refine ⟨⟨(i 0).val / 5000, hlt⟩, flush1_4 _, ?_⟩
  obtain ⟨-, -, -, -, -, -, -, e0, e1⟩ := idx_facts ⟨(i 0).val / 5000, hlt⟩
  rw [mem_blk]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    rw [e1]; omega

/-- After the last grid point the output array is the whole-array function of the region's input arrays. -/
theorem arr (c : Dev nD) :
    (dat1 (F := Ideal) V c).arrAt 4 cfg1.N
      = Cert.Spec.combineRelu (V c main_v36) (V c main_v29) (V c main_v13) (V c main_arg3) :=
  (dat1 (F := Ideal) V c).arrAt_eq_of_cover 4 (G V c) (fun t _ => flushed_eq V c t) cover

end Cert.KernelIdeal.Region1

end
-- ==== Proof.Region2.lean ====
/-
  The second projection, `z · W2`, as the third kernel leaves it.

  As for the first projection with a `128 × 64` weight: point `t` of the 20 writes rows `5000 t … 5000 t + 4999` of
  the `100000 × 64` product, and the row blocks tile the array, so every entry `(r, c)` ends at
  `∑ k, z (r, k) * W (k, c)`.
-/
import proofs.«405343_j79405355369095_1_alg».proof.Proof.Gen.KernelIdeal.Frame
import proofs.«405343_j79405355369095_1_alg».proof.Proof.Spec
import proofs.«405343_j79405355369095_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The matrix unit's result at entry `(p, q)`: the cast to the same shape and both changes of float format are the
    identity over the extended reals and the accumulator starts at zero, so it is the plain sum over the contracted
    axis. -/
theorem pay_apply (x0 : Vec Ideal S5000x128 .f32) (x1 : Vec Ideal S128x64 .f32) (p : Fin 5000) (q : Fin 64) :
    (k2_pay1 (F := Ideal) x0 x1) (ix2 p q) = ∑ k : Fin 128, x0 (ix2 p k) * x1 (ix2 k q) := by
  unfold k2_pay1
  rw [shapeCast_self]
  exact (Cert.LibPlainDot.matmul_plain_zero_apply 5000 128 64 none _ _ (ix2 p q))

/-- What the body leaves in the output block, at entry `(p, q)`: its one store covers the block and its loads read
    the whole input blocks. -/
theorem out_apply (x0 : Vec Ideal S5000x128 .f32) (x1 : Vec Ideal S128x64 .f32) (p : Fin 5000) (q : Fin 64) :
    (out2_2 (F := Ideal) x0 x1) (ix2 p q) = ∑ k : Fin 128, x0 (ix2 p k) * x1 (ix2 k q) := by
  unfold out2_2
  rw [View.canon_unit_zero zero_offsets]
  simp only [View.ld_unit_zero (S := S5000x128) zero_offsets, View.ld_unit_zero (S := S128x64) zero_offsets]
  exact pay_apply x0 x1 p q

/-- The block indices over the grid: the row blocks of the left operand and of the product are at `(t, 0)`, the
    weight's one block at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left operand's block at point `t` is row `5000 t + p` of the left operand. -/
theorem x_block_apply (c : Dev nD) (t : Fin cfg2.N) (p : Fin 5000) (k : Fin 128) (r : Fin 100000)
    (hr : r.val = t.val * 5000 + p.val) :
    (iblk2 V c 0 t : Vec Ideal S5000x128 .f32) (ix2 p k) = (V c main_v37 : S100000x128.Idx → EReal) (ix2 r k) := by
  obtain ⟨e0, e1, -⟩ := idx_facts t
  show V c main_v37 (((cfg2.win 0).blk t).view.emb (ix2 p k)) = V c main_v37 (ix2 r k)
  congr 1
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The weight's block at every point is the whole weight. -/
theorem w_block_apply (c : Dev nD) (t : Fin cfg2.N) (k : Fin 128) (q q' : Fin 64) (hq : q'.val = q.val) :
    (iblk2 V c 1 t : Vec Ideal S128x64 .f32) (ix2 k q) = (V c main_arg4 : S128x64.Idx → EReal) (ix2 k q') := by
  obtain ⟨-, -, e2, e3, -⟩ := idx_facts t
  show V c main_arg4 (((cfg2.win 1).blk t).view.emb (ix2 k q)) = V c main_arg4 (ix2 k q')
  congr 1
  funext a; apply Fin.ext
  match a with
  | ⟨0, _⟩ => show win2_1.index t (0 : Fin 2) * 128 + 1 * k.val = k.val; omega
  | ⟨1, _⟩ => show win2_1.index t (1 : Fin 2) * 64 + 1 * q.val = q'.val; omega

/-- What point `t` writes back is block `t` of the product of the arrays the region finds. -/
theorem flushed_eq (c : Dev nD) (t : Fin cfg2.N) :
    (dat2 (F := Ideal) V c).flushed 2 t
      = ((cfg2.win 2).blk t).view.read (Elt Ideal) (Cert.Spec.mm (V c main_v37) (V c main_arg4)) := by
  show (cfg2.win 2).cut (grid2.coords t) ((dat2 (F := Ideal) V c).after 2 t) = _
  rw [after2_2]
  refine funext fun j => ?_
  obtain ⟨p, q, rfl⟩ : ∃ (p : Fin 5000) (q : Fin 64), j = ix2 p q := ⟨j 0, j 1, eq_ix2 j⟩
  obtain ⟨-, -, -, -, e4, e5⟩ := idx_facts t
  show out2_2 (iblk2 V c 0 t) (iblk2 V c 1 t) (ix2 p q)
    = Cert.Spec.mm (V c main_v37) (V c main_arg4) (((cfg2.win 2).blk t).view.emb (ix2 p q))
  refine (out_apply (iblk2 V c 0 t) (iblk2 V c 1 t) p q).trans ?_
  unfold Cert.Spec.mm
  refine Finset.sum_congr rfl fun k _ => ?_
  rw [x_block_apply V c t p k (Cert.Spec.row (((cfg2.win 2).blk t).view.emb (ix2 p q)))
      (by show win2_2.index t (0 : Fin 2) * 5000 + 1 * p.val = t.val * 5000 + p.val; omega),
    w_block_apply V c t k q (Cert.Spec.col (((cfg2.win 2).blk t).view.emb (ix2 p q)))
      (by show win2_2.index t (1 : Fin 2) * 64 + 1 * q.val = q.val; omega)]

/-- An entry of the product array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v38).slice (win2_2.rect t)).set ↔ _
  rw [View.set_slice_whole, Rect.mem_set_unit]
  exact Iff.rfl

/-- The row blocks tile the array: entry `(r, c)` is in the block of point `r / 5000`. -/
theorem cover (i : S100000x64.Idx) :
    ∃ t : Fin cfg2.N, (cfg2.win 2).flush t = true ∧ i ∈ ((cfg2.win 2).blk t).view.set := by
  have hN : cfg2.N = 20 := N_2
  have hi0 : (i 0).val < 100000 := idx2_lt0 i
  have hi1 : (i 1).val < 64 := idx2_lt1 i
  have ht : (i 0).val / 5000 < cfg2.N := by omega
  obtain ⟨-, -, -, -, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    omega

/-- After the last grid point the output array is the whole-array function of the region's input arrays. -/
theorem arr (c : Dev nD) :
    (dat2 (F := Ideal) V c).arrAt 2 cfg2.N = Cert.Spec.mm (V c main_v37) (V c main_arg4) :=
  (dat2 (F := Ideal) V c).arrAt_eq_of_cover 2 (Cert.Spec.mm (V c main_v37) (V c main_arg4))
    (fun t _ => flushed_eq V c t) cover

end Cert.KernelIdeal.Region2

end
-- ==== Proof.ChainB.lean ====
/-
  The first graph-convolution layer and the second projection of the idealized kernel program, read back.

  The second host stretch gathers the rows of `x · W1` at the source indices, filling out-of-range rows; the indices
  are in range, so it is the reference's plain gather. The third scales each gathered row by its edge's coefficient
  and scatter-adds the rows at the destination indices: the reference's aggregate. The second kernel region combines
  the aggregate, the projection, the inverse degrees and the bias and clips at zero: the reference's first layer.
  The third kernel region multiplies by `W2`: the reference's second projection. Neither region changes a buffer
  it does not write.
-/
import proofs.«405343_j79405355369095_1_alg».proof.Proof.Gen.KernelIdeal.Frame
import proofs.«405343_j79405355369095_1_alg».proof.Proof.Gen.ReferenceIdeal.Read
import proofs.«405343_j79405355369095_1_alg».proof.Proof.Spec
import proofs.«405343_j79405355369095_1_alg».proof.Proof.RefSpec
import proofs.«405343_j79405355369095_1_alg».proof.Proof.KTake
import proofs.«405343_j79405355369095_1_alg».proof.Proof.ChainA
import proofs.«405343_j79405355369095_1_alg».proof.Proof.ChainTake
import proofs.«405343_j79405355369095_1_alg».proof.Proof.Region1
import proofs.«405343_j79405355369095_1_alg».proof.Proof.Region2
import Idealize.ShloMosaic.Lib.StableHlo.Run
import Idealize.ShloMosaic.PureOps.Ideal

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the gather of the first projection's rows -/

/-- With the sources in range it is the reference's gather of the first projection's rows. -/
theorem W3_v30 (c : Dev nD) (hs : Cert.KernelIdeal.Mask.InRange (Cert.ReferenceIdeal.Read.val_main_v1 (F := Ideal) (a1 m c))) :
    W3 m ρ c (Proc.devRef .tc main_v30) = Cert.ReferenceIdeal.Read.val_main_v35 (F := Ideal) (a0 m c) (a1 m c) (a2 m c) := by
  show StableHlo.after hostOps1 (W2 m ρ c) (Proc.devRef .tc main_v30) = _
  rw [take_v30, W2_v29, W2_v1, Cert.KernelIdeal.KTake.take128_eq _ _ hs]
  rfl

/-- The gather's stretch does not write the edge coefficients. -/
theorem W3_v28 (c : Dev nD) : W3 m ρ c (Proc.devRef .tc main_v28) = Cert.ReferenceIdeal.Read.val_main_v28 (F := Ideal) (a1 m c) := by
  dsimp only [W3, hostOps1]
  after_results_simp
  exact W2_v28 m ρ c

/-- The gather's stretch does not write the destination indices. -/
theorem W3_v3 (c : Dev nD) : W3 m ρ c (Proc.devRef .tc main_v3) = Cert.ReferenceIdeal.Read.val_main_v3 (F := Ideal) (a1 m c) := by
  dsimp only [W3, hostOps1]
  after_results_simp
  exact W2_v3 m ρ c

/-! ## After the first aggregation -/

/-- The gathered rows scaled by the edge coefficients and scatter-added at the destinations: the reference's
    first aggregate. -/
theorem W4_v36 (c : Dev nD) (hs : Cert.KernelIdeal.Mask.InRange (Cert.ReferenceIdeal.Read.val_main_v1 (F := Ideal) (a1 m c))) :
    W4 m ρ c (Proc.devRef .tc main_v36) = Cert.ReferenceIdeal.Read.val_main_v41 (F := Ideal) (a0 m c) (a1 m c) (a2 m c) := by
  have e30 := W3_v30 m ρ c hs
  have e28 := W3_v28 m ρ c
  have e3 := W3_v3 m ρ c
  show StableHlo.after hostOps1_1 (W3 m ρ c) (Proc.devRef .tc main_v36) = _
  generalize W3 m ρ c = V at e30 e28 e3 ⊢
  dsimp only [hostOps1_1]
  after_results_simp
  rw [e30, e28, e3]
  rfl

/-- The two stretches do not write the first projection. -/
theorem W4_v29 (c : Dev nD) : W4 m ρ c (Proc.devRef .tc main_v29) = Cert.ReferenceIdeal.Read.val_main_v13 (F := Ideal) (a0 m c) (a2 m c) := by
  dsimp only [W4, W3, hostOps1_1, hostOps1]
  after_results_simp
  exact W2_v29 m ρ c

/-- The two stretches do not write the source indices. -/
theorem W4_v1 (c : Dev nD) : W4 m ρ c (Proc.devRef .tc main_v1) = Cert.ReferenceIdeal.Read.val_main_v1 (F := Ideal) (a1 m c) := by
  dsimp only [W4, W3, hostOps1_1, hostOps1]
  after_results_simp
  exact W2_v1 m ρ c

/-- The two stretches do not write the destination indices. -/
theorem W4_v3 (c : Dev nD) : W4 m ρ c (Proc.devRef .tc main_v3) = Cert.ReferenceIdeal.Read.val_main_v3 (F := Ideal) (a1 m c) := by
  dsimp only [W4, W3, hostOps1_1, hostOps1]
  after_results_simp
  exact W2_v3 m ρ c

/-- The two stretches do not write the column of inverse degrees. -/
theorem W4_v13 (c : Dev nD) : W4 m ρ c (Proc.devRef .tc main_v13) = Cert.ReferenceIdeal.Read.val_main_v42 (F := Ideal) (a1 m c) := by
  dsimp only [W4, W3, hostOps1_1, hostOps1]
  after_results_simp
  exact W2_v13 m ρ c

/-- The two stretches do not write the edge coefficients. -/
theorem W4_v28 (c : Dev nD) : W4 m ρ c (Proc.devRef .tc main_v28) = Cert.ReferenceIdeal.Read.val_main_v28 (F := Ideal) (a1 m c) := by
  dsimp only [W4, W3, hostOps1_1, hostOps1]
  after_results_simp
  exact W2_v28 m ρ c

/-- The two stretches do not write the first layer's bias. -/
theorem W4_arg3 (c : Dev nD) : W4 m ρ c (Proc.devRef .tc main_arg3) = a3 m c := by
  dsimp only [W4, W3, hostOps1_1, hostOps1]
  after_results_simp
  exact W2_arg3 m ρ c

/-- The two stretches do not write the second layer's weight. -/
theorem W4_arg4 (c : Dev nD) : W4 m ρ c (Proc.devRef .tc main_arg4) = a4 m c := by
  dsimp only [W4, W3, hostOps1_1, hostOps1]
  after_results_simp
  exact W2_arg4 m ρ c

/-- The two stretches do not write the second layer's bias. -/
theorem W4_arg5 (c : Dev nD) : W4 m ρ c (Proc.devRef .tc main_arg5) = a5 m c := by
  dsimp only [W4, W3, hostOps1_1, hostOps1]
  after_results_simp
  exact W2_arg5 m ρ c

/-- The two stretches do not write the decoder's first weight. -/
theorem W4_arg6 (c : Dev nD) : W4 m ρ c (Proc.devRef .tc main_arg6) = a6 m c := by
  dsimp only [W4, W3, hostOps1_1, hostOps1]
  after_results_simp
  exact W2_arg6 m ρ c

/-- The two stretches do not write the decoder's first bias. -/
theorem W4_arg7 (c : Dev nD) : W4 m ρ c (Proc.devRef .tc main_arg7) = a7 m c := by
  dsimp only [W4, W3, hostOps1_1, hostOps1]
  after_results_simp
  exact W2_arg7 m ρ c

/-- The two stretches do not write the decoder's second weight. -/
theorem W4_arg8 (c : Dev nD) : W4 m ρ c (Proc.devRef .tc main_arg8) = a8 m c := by
  dsimp only [W4, W3, hostOps1_1, hostOps1]
  after_results_simp
  exact W2_arg8 m ρ c

/-- The two stretches do not write the decoder's second bias. -/
theorem W4_arg9 (c : Dev nD) : W4 m ρ c (Proc.devRef .tc main_arg9) = a9 m c := by
  dsimp only [W4, W3, hostOps1_1, hostOps1]
  after_results_simp
  exact W2_arg9 m ρ c

/-- The two stretches do not write the decoder's third weight. -/
theorem W4_arg10 (c : Dev nD) : W4 m ρ c (Proc.devRef .tc main_arg10) = a10 m c := by
  dsimp only [W4, W3, hostOps1_1, hostOps1]
  after_results_simp
  exact W2_arg10 m ρ c

/-- The two stretches do not write the decoder's third bias. -/
theorem W4_arg11 (c : Dev nD) : W4 m ρ c (Proc.devRef .tc main_arg11) = a11 m c := by
  dsimp only [W4, W3, hostOps1_1, hostOps1]
  after_results_simp
  exact W2_arg11 m ρ c

/-- The two stretches do not write the decoder's last weight. -/
theorem W4_arg12 (c : Dev nD) : W4 m ρ c (Proc.devRef .tc main_arg12) = a12 m c := by
  dsimp only [W4, W3, hostOps1_1, hostOps1]
  after_results_simp
  exact W2_arg12 m ρ c

/-- The two stretches do not write the decoder's last bias. -/
theorem W4_arg13 (c : Dev nD) : W4 m ρ c (Proc.devRef .tc main_arg13) = a13 m c := by
  dsimp only [W4, W3, hostOps1_1, hostOps1]
  after_results_simp
  exact W2_arg13 m ρ c

/-! ## After the first layer's combine -/

/-- The region's output is the reference's first layer: the clipped combine of the aggregate, the projection, the
    inverse degrees and the bias. -/
theorem W5_v37 (c : Dev nD) (hs : Cert.KernelIdeal.Mask.InRange (Cert.ReferenceIdeal.Read.val_main_v1 (F := Ideal) (a1 m c))) :
    W5 m ρ c (Proc.devRef .tc main_v37) = Cert.ReferenceIdeal.Read.val_main_v49 (F := Ideal) (a0 m c) (a1 m c) (a2 m c) (a3 m c) := by
  refine (W5_arr m ρ c 4).trans ?_
  rw [Cert.KernelIdeal.Region1.arr (V4 m ρ) c, Cert.ReferenceIdeal.RefSpec.v49_eq]
  have h36 : V4 m ρ c main_v36 = Cert.ReferenceIdeal.Read.val_main_v41 (F := Ideal) (a0 m c) (a1 m c) (a2 m c) := W4_v36 m ρ c hs
  have h29 : V4 m ρ c main_v29 = Cert.ReferenceIdeal.Read.val_main_v13 (F := Ideal) (a0 m c) (a2 m c) := W4_v29 m ρ c
  have h13 : V4 m ρ c main_v13 = Cert.ReferenceIdeal.Read.val_main_v42 (F := Ideal) (a1 m c) := W4_v13 m ρ c
  have h3 : V4 m ρ c main_arg3 = a3 m c := W4_arg3 m ρ c
  rw [h36, h29, h13, h3]

/-- The inverse degrees are one of the region's inputs: it reads them and leaves them. -/
theorem W5_v13 (c : Dev nD) : W5 m ρ c (Proc.devRef .tc main_v13) = Cert.ReferenceIdeal.Read.val_main_v42 (F := Ideal) (a1 m c) :=
  ((W5_arr m ρ c 2).trans (((dat1 (V4 m ρ) c).arrAt_in 2 rfl _).trans (A_eq1 (V4 m ρ) c 2))).trans (W4_v13 m ρ c)

/-- The region leaves the source indices as they were. -/
theorem W5_v1 (c : Dev nD) : W5 m ρ c (Proc.devRef .tc main_v1) = Cert.ReferenceIdeal.Read.val_main_v1 (F := Ideal) (a1 m c) :=
  (W5_of_ne m ρ c main_v1 (by decide)).trans (W4_v1 m ρ c)

/-- The region leaves the destination indices as they were. -/
theorem W5_v3 (c : Dev nD) : W5 m ρ c (Proc.devRef .tc main_v3) = Cert.ReferenceIdeal.Read.val_main_v3 (F := Ideal) (a1 m c) :=
  (W5_of_ne m ρ c main_v3 (by decide)).trans (W4_v3 m ρ c)

/-- The region leaves the edge coefficients as they were. -/
theorem W5_v28 (c : Dev nD) : W5 m ρ c (Proc.devRef .tc main_v28) = Cert.ReferenceIdeal.Read.val_main_v28 (F := Ideal) (a1 m c) :=
  (W5_of_ne m ρ c main_v28 (by decide)).trans (W4_v28 m ρ c)

/-- The region leaves the second layer's weight as they were. -/
theorem W5_arg4 (c : Dev nD) : W5 m ρ c (Proc.devRef .tc main_arg4) = a4 m c :=
  (W5_of_ne m ρ c main_arg4 (by decide)).trans (W4_arg4 m ρ c)

/-- The region leaves the second layer's bias as they were. -/
theorem W5_arg5 (c : Dev nD) : W5 m ρ c (Proc.devRef .tc main_arg5) = a5 m c :=
  (W5_of_ne m ρ c main_arg5 (by decide)).trans (W4_arg5 m ρ c)

/-- The region leaves the decoder's first weight as they were. -/
theorem W5_arg6 (c : Dev nD) : W5 m ρ c (Proc.devRef .tc main_arg6) = a6 m c :=
  (W5_of_ne m ρ c main_arg6 (by decide)).trans (W4_arg6 m ρ c)

/-- The region leaves the decoder's first bias as they were. -/
theorem W5_arg7 (c : Dev nD) : W5 m ρ c (Proc.devRef .tc main_arg7) = a7 m c :=
  (W5_of_ne m ρ c main_arg7 (by decide)).trans (W4_arg7 m ρ c)

/-- The region leaves the decoder's second weight as they were. -/
theorem W5_arg8 (c : Dev nD) : W5 m ρ c (Proc.devRef .tc main_arg8) = a8 m c :=
  (W5_of_ne m ρ c main_arg8 (by decide)).trans (W4_arg8 m ρ c)

/-- The region leaves the decoder's second bias as they were. -/
theorem W5_arg9 (c : Dev nD) : W5 m ρ c (Proc.devRef .tc main_arg9) = a9 m c :=
  (W5_of_ne m ρ c main_arg9 (by decide)).trans (W4_arg9 m ρ c)

/-- The region leaves the decoder's third weight as they were. -/
theorem W5_arg10 (c : Dev nD) : W5 m ρ c (Proc.devRef .tc main_arg10) = a10 m c :=
  (W5_of_ne m ρ c main_arg10 (by decide)).trans (W4_arg10 m ρ c)

/-- The region leaves the decoder's third bias as they were. -/
theorem W5_arg11 (c : Dev nD) : W5 m ρ c (Proc.devRef .tc main_arg11) = a11 m c :=
  (W5_of_ne m ρ c main_arg11 (by decide)).trans (W4_arg11 m ρ c)

/-- The region leaves the decoder's last weight as they were. -/
theorem W5_arg12 (c : Dev nD) : W5 m ρ c (Proc.devRef .tc main_arg12) = a12 m c :=
  (W5_of_ne m ρ c main_arg12 (by decide)).trans (W4_arg12 m ρ c)

/-- The region leaves the decoder's last bias as they were. -/
theorem W5_arg13 (c : Dev nD) : W5 m ρ c (Proc.devRef .tc main_arg13) = a13 m c :=
  (W5_of_ne m ρ c main_arg13 (by decide)).trans (W4_arg13 m ρ c)

/-! ## After the second projection -/

/-- The region's output is the reference's second projection `z · W2`. -/
theorem W6_v38 (c : Dev nD) (hs : Cert.KernelIdeal.Mask.InRange (Cert.ReferenceIdeal.Read.val_main_v1 (F := Ideal) (a1 m c))) :
    W6 m ρ c (Proc.devRef .tc main_v38) = Cert.ReferenceIdeal.Read.val_main_v50 (F := Ideal) (a0 m c) (a1 m c) (a2 m c) (a3 m c) (a4 m c) := by
  refine (W6_arr m ρ c 2).trans ?_
  rw [Cert.KernelIdeal.Region2.arr (V5 m ρ) c, Cert.ReferenceIdeal.RefSpec.v50_eq]
  have h37 : V5 m ρ c main_v37 = Cert.ReferenceIdeal.Read.val_main_v49 (F := Ideal) (a0 m c) (a1 m c) (a2 m c) (a3 m c) := W5_v37 m ρ c hs
  have h4 : V5 m ρ c main_arg4 = a4 m c := W5_arg4 m ρ c
  rw [h37, h4]

/-- The region leaves the source indices as they were. -/
theorem W6_v1 (c : Dev nD) : W6 m ρ c (Proc.devRef .tc main_v1) = Cert.ReferenceIdeal.Read.val_main_v1 (F := Ideal) (a1 m c) :=
  (W6_of_ne m ρ c main_v1 (by decide)).trans (W5_v1 m ρ c)

/-- The region leaves the destination indices as they were. -/
theorem W6_v3 (c : Dev nD) : W6 m ρ c (Proc.devRef .tc main_v3) = Cert.ReferenceIdeal.Read.val_main_v3 (F := Ideal) (a1 m c) :=
  (W6_of_ne m ρ c main_v3 (by decide)).trans (W5_v3 m ρ c)

/-- The region leaves the column of inverse degrees as they were. -/
theorem W6_v13 (c : Dev nD) : W6 m ρ c (Proc.devRef .tc main_v13) = Cert.ReferenceIdeal.Read.val_main_v42 (F := Ideal) (a1 m c) :=
  (W6_of_ne m ρ c main_v13 (by decide)).trans (W5_v13 m ρ c)

/-- The region leaves the edge coefficients as they were. -/
theorem W6_v28 (c : Dev nD) : W6 m ρ c (Proc.devRef .tc main_v28) = Cert.ReferenceIdeal.Read.val_main_v28 (F := Ideal) (a1 m c) :=
  (W6_of_ne m ρ c main_v28 (by decide)).trans (W5_v28 m ρ c)

/-- The region leaves the second layer's bias as they were. -/
theorem W6_arg5 (c : Dev nD) : W6 m ρ c (Proc.devRef .tc main_arg5) = a5 m c :=
  (W6_of_ne m ρ c main_arg5 (by decide)).trans (W5_arg5 m ρ c)

/-- The region leaves the decoder's first weight as they were. -/
theorem W6_arg6 (c : Dev nD) : W6 m ρ c (Proc.devRef .tc main_arg6) = a6 m c :=
  (W6_of_ne m ρ c main_arg6 (by decide)).trans (W5_arg6 m ρ c)

/-- The region leaves the decoder's first bias as they were. -/
theorem W6_arg7 (c : Dev nD) : W6 m ρ c (Proc.devRef .tc main_arg7) = a7 m c :=
  (W6_of_ne m ρ c main_arg7 (by decide)).trans (W5_arg7 m ρ c)

/-- The region leaves the decoder's second weight as they were. -/
theorem W6_arg8 (c : Dev nD) : W6 m ρ c (Proc.devRef .tc main_arg8) = a8 m c :=
  (W6_of_ne m ρ c main_arg8 (by decide)).trans (W5_arg8 m ρ c)

/-- The region leaves the decoder's second bias as they were. -/
theorem W6_arg9 (c : Dev nD) : W6 m ρ c (Proc.devRef .tc main_arg9) = a9 m c :=
  (W6_of_ne m ρ c main_arg9 (by decide)).trans (W5_arg9 m ρ c)

/-- The region leaves the decoder's third weight as they were. -/
theorem W6_arg10 (c : Dev nD) : W6 m ρ c (Proc.devRef .tc main_arg10) = a10 m c :=
  (W6_of_ne m ρ c main_arg10 (by decide)).trans (W5_arg10 m ρ c)

/-- The region leaves the decoder's third bias as they were. -/
theorem W6_arg11 (c : Dev nD) : W6 m ρ c (Proc.devRef .tc main_arg11) = a11 m c :=
  (W6_of_ne m ρ c main_arg11 (by decide)).trans (W5_arg11 m ρ c)

/-- The region leaves the decoder's last weight as they were. -/
theorem W6_arg12 (c : Dev nD) : W6 m ρ c (Proc.devRef .tc main_arg12) = a12 m c :=
  (W6_of_ne m ρ c main_arg12 (by decide)).trans (W5_arg12 m ρ c)

/-- The region leaves the decoder's last bias as they were. -/
theorem W6_arg13 (c : Dev nD) : W6 m ρ c (Proc.devRef .tc main_arg13) = a13 m c :=
  (W6_of_ne m ρ c main_arg13 (by decide)).trans (W5_arg13 m ρ c)

end Cert.KernelIdeal.Chain

end
-- ==== Proof.Region3.lean ====
/-
  The second layer's combine, not clipped: `agg + h · (1/deg) + b` over `100000 × 64`, as the fourth kernel leaves it.

  The same blocks as the first layer's combine, 64 columns wide: entry `(r, c)` is
  `(agg (r, c) + h (r, c) * d (r, 0)) + b c`.
-/
import proofs.«405343_j79405355369095_1_alg».proof.Proof.Gen.KernelIdeal.Frame
import proofs.«405343_j79405355369095_1_alg».proof.Proof.Spec
import proofs.«405343_j79405355369095_1_alg».proof.Proof.LibPlainDot
import proofs.«405343_j79405355369095_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The zero offsets of a rank-2 whole-buffer access, however they are spelt. -/
theorem hz2 : (![0, 0] : Fin 2 → Nat) = fun _ => 0 := funext fun a => by fin_cases a <;> rfl
/-- The zero offset of a rank-1 whole-buffer access. -/
theorem hz1 : (![0] : Fin 1 → Nat) = fun _ => 0 := funext fun a => by fin_cases a <;> rfl

/-- The body's value at entry `(p, q)` of its block: the aggregate plus the features scaled by the row's column entry,
    plus the bias at the column. -/
theorem pay_apply (x0 x1 : Vec Ideal S5000x64 .f32) (x2 : Vec Ideal S5000x1 .f32) (x3 : Vec Ideal S64 .f32)
    (p : Fin 5000) (q : Fin 64) :
    (k3_pay1 (F := Ideal) x0 x1 x2 x3) (ix2 p q)
      = (x0 (ix2 p q) + x1 (ix2 p q) * x2 (ix2 p (0 : Fin 1))) + x3 (ix1 q) := by
  unfold k3_pay1
  show (shapeCast S5000x64 x0 shapeCasts_S5000x64_S5000x64 (ix2 p q)
        + shapeCast S5000x64 x1 shapeCasts_S5000x64_S5000x64 (ix2 p q)
          * broadcastTo S5000x64 (shapeCast S5000x1 x2 shapeCasts_S5000x1_S5000x1) broadcasts_S5000x1_S5000x64 (ix2 p q))
      + broadcastTo S5000x64 (shapeCast S1x64 x3 shapeCasts_S64_S1x64) broadcasts_S1x64_S5000x64 (ix2 p q) = _
  rw [shapeCast_self, shapeCast_self, shapeCast_self, Cert.Columns.broadcastTo_a1_ab_apply,
    broadcastTo_1b_ab_apply, shapeCast_a_1a_apply]

/-- The printed index maps, decided over the grid: the three row-blocked inputs and the output sit at block row `t`,
    block column `0`; the bias window stays at block `0`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The aggregate's block at point `t` is rows `5000 t … 5000 t + 4999` of the aggregate. -/
theorem blk_agg (c : Dev nD) (t : Fin cfg3.N) (p : Fin 5000) (q : Fin 64) (r : Fin 100000)
    (hr : r.val = t.val * 5000 + p.val) :
    (iblk3 V c 0 t : Vec Ideal S5000x64 .f32) (ix2 p q) = (V c main_v45 : S100000x64.Idx → EReal) (ix2 r q) := by
  obtain ⟨e0, e1, -⟩ := idx_facts t
  unfold iblk3
  rw [View.read_apply]
  show V c main_v45 _ = V c main_v45 _
  congr 1
  funext a
  apply Fin.ext
  match a with
  | ⟨0, _⟩ => show win3_0.index t (0 : Fin 2) * 5000 + 1 * p.val = r.val; omega
  | ⟨1, _⟩ => show win3_0.index t (1 : Fin 2) * 64 + 1 * q.val = q.val; omega

/-- The features' block at point `t` is the same rows of the projected features. -/
theorem blk_h (c : Dev nD) (t : Fin cfg3.N) (p : Fin 5000) (q : Fin 64) (r : Fin 100000)
    (hr : r.val = t.val * 5000 + p.val) :
    (iblk3 V c 1 t : Vec Ideal S5000x64 .f32) (ix2 p q) = (V c main_v38 : S100000x64.Idx → EReal) (ix2 r q) := by
  obtain ⟨-, -, e0, e1, -⟩ := idx_facts t
  unfold iblk3
  rw [View.read_apply]
  show V c main_v38 _ = V c main_v38 _
  congr 1
  funext a
  apply Fin.ext
  match a with
  | ⟨0, _⟩ => show win3_1.index t (0 : Fin 2) * 5000 + 1 * p.val = r.val; omega
  | ⟨1, _⟩ => show win3_1.index t (1 : Fin 2) * 64 + 1 * q.val = q.val; omega

/-- The column's block at point `t` is the same rows of the column. -/
theorem blk_d (c : Dev nD) (t : Fin cfg3.N) (p : Fin 5000) (r : Fin 100000)
    (hr : r.val = t.val * 5000 + p.val) :
    (iblk3 V c 2 t : Vec Ideal S5000x1 .f32) (ix2 p (0 : Fin 1)) = (V c main_v13 : S100000x1.Idx → EReal) (ix2 r (0 : Fin 1)) := by
  obtain ⟨-, -, -, -, e0, e1, -⟩ := idx_facts t
  unfold iblk3
  rw [View.read_apply]
  show V c main_v13 _ = V c main_v13 _
  congr 1
  funext a
  apply Fin.ext
  match a with
  | ⟨0, _⟩ => show win3_2.index t (0 : Fin 2) * 5000 + 1 * p.val = r.val; omega
  | ⟨1, _⟩ => show win3_2.index t (1 : Fin 2) * 1 + 1 * (0 : Fin 1).val = (0 : Fin 1).val; omega

/-- The bias window's block at every point is the whole bias vector. -/
theorem blk_b (c : Dev nD) (t : Fin cfg3.N) (q : Fin 64) :
    (iblk3 V c 3 t : Vec Ideal S64 .f32) (ix1 q) = (V c main_arg5 : S64.Idx → EReal) (ix1 q) := by
  obtain ⟨-, -, -, -, -, -, e0, -⟩ := idx_facts t
  unfold iblk3
  rw [View.read_apply]
  show V c main_arg5 _ = V c main_arg5 _
  congr 1
  funext a
  apply Fin.ext
  match a with
  | ⟨0, _⟩ => show win3_3.index t (0 : Fin 1) * 64 + 1 * q.val = q.val; omega

/-- What the region's output array holds in the end, as a function of the region's four input arrays. -/
abbrev G (c : Dev nD) : S100000x64.Idx → EReal :=
  Cert.Spec.combine (V c main_v45) (V c main_v38) (V c main_v13) (V c main_arg5)

/-- What point `t` writes back is block `t` of the combine of the input arrays. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz2]
  simp only [View.ld_unit_zero (S := S5000x64) hz2, View.ld_unit_zero (S := S5000x1) hz2, View.ld_unit_zero (S := S64) hz1]
  obtain ⟨-, -, -, -, -, -, -, e0, e1⟩ := idx_facts t
  funext j
  obtain ⟨p, q, rfl⟩ : ∃ (p : Fin 5000) (q : Fin 64), j = ix2 p q := ⟨j 0, j 1, eq_ix2 j⟩
  have hN : cfg3.N = 20 := N_3
  have ht : t.val < 20 := hN ▸ t.isLt
  have hlt : t.val * 5000 + p.val < 100000 := by have := p.isLt; omega
  have hemb : ((cfg3.win 4).blk t).view.emb (ix2 p q) = (ix2 (⟨t.val * 5000 + p.val, hlt⟩ : Fin 100000) q : S100000x64.Idx) := by
    funext a
    apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  rw [View.read_apply]
  show (k3_pay1 (F := Ideal) (iblk3 V c 0 t) (iblk3 V c 1 t) (iblk3 V c 2 t) (iblk3 V c 3 t)) (ix2 p q)
    = G V c (((cfg3.win 4).blk t).view.emb (ix2 p q))
  rw [hemb, pay_apply, blk_agg V c t p q ⟨t.val * 5000 + p.val, hlt⟩ rfl, blk_h V c t p q ⟨t.val * 5000 + p.val, hlt⟩ rfl,
    blk_d V c t p ⟨t.val * 5000 + p.val, hlt⟩ rfl, blk_b V c t q]
  rfl

/-- An index of the array is in point `t`'s block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v46).slice (win3_4.rect t)).set ↔ _
  rw [View.set_slice_whole, Rect.mem_set_unit]
  exact Iff.rfl

/-- Row `r` of the array is in the block of point `r / 5000`: the twenty row blocks tile the array. -/
theorem cover (i : S100000x64.Idx) :
    ∃ t : Fin cfg3.N, (cfg3.win 4).flush t = true ∧ i ∈ ((cfg3.win 4).blk t).view.set := by
  have hN : cfg3.N = 20 := N_3
  have hi0 : (i 0).val < 100000 := (i 0).isLt
  have hi1 : (i 1).val < 64 := (i 1).isLt
  have hlt : (i 0).val / 5000 < cfg3.N := by rw [hN]; omega
  refine ⟨⟨(i 0).val / 5000, hlt⟩, flush3_4 _, ?_⟩
  obtain ⟨-, -, -, -, -, -, -, e0, e1⟩ := idx_facts ⟨(i 0).val / 5000, hlt⟩
  rw [mem_blk]
  intro a
  match a with
  | ⟨0, _⟩ =>
    show win3_4.index ⟨(i 0).val / 5000, hlt⟩ (0 : Fin 2) * 5000 ≤ (i 0).val ∧ (i 0).val < win3_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, hlt⟩ (1 : Fin 2) * 64 ≤ (i 1).val ∧ (i 1).val < win3_4.index ⟨(i 0).val / 5000, hlt⟩ (1 : Fin 2) * 64 + 64
    rw [e1]; omega

/-- After the last grid point the output array is the whole-array function of the region's input arrays. -/
theorem arr (c : Dev nD) :
    (dat3 (F := Ideal) V c).arrAt 4 cfg3.N
      = Cert.Spec.combine (V c main_v45) (V c main_v38) (V c main_v13) (V c main_arg5) :=
  (dat3 (F := Ideal) V c).arrAt_eq_of_cover 4 (G V c) (fun t _ => flushed_eq V c t) cover

end Cert.KernelIdeal.Region3

end
-- ==== Proof.ChainC.lean ====
/-
  The second graph-convolution layer of the idealized kernel program, read back.

  The same three steps as the first layer, 64 columns wide and on the second projection: the filled gather of its rows
  at the sources is the reference's gather (the sources are in range), the scaled rows scatter-added at the
  destinations are the reference's second aggregate (the reference computes the edge coefficients a second time, by
  the same operations from the same degrees), and the fourth kernel region's combine, not clipped, is the
  reference's second layer.
-/
import proofs.«405343_j79405355369095_1_alg».proof.Proof.Gen.KernelIdeal.Frame
import proofs.«405343_j79405355369095_1_alg».proof.Proof.Gen.ReferenceIdeal.Read
import proofs.«405343_j79405355369095_1_alg».proof.Proof.Spec
import proofs.«405343_j79405355369095_1_alg».proof.Proof.RefSpec
import proofs.«405343_j79405355369095_1_alg».proof.Proof.KTake
import proofs.«405343_j79405355369095_1_alg».proof.Proof.ChainB
import proofs.«405343_j79405355369095_1_alg».proof.Proof.Region3
import Idealize.ShloMosaic.Lib.StableHlo.Run
import Idealize.ShloMosaic.PureOps.Ideal

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the gather of the second projection's rows -/

/-- With the sources in range it is the reference's gather of the second projection's rows. -/
theorem W7_v39 (c : Dev nD) (hs : Cert.KernelIdeal.Mask.InRange (Cert.ReferenceIdeal.Read.val_main_v1 (F := Ideal) (a1 m c))) :
    W7 m ρ c (Proc.devRef .tc main_v39) = Cert.ReferenceIdeal.Read.val_main_v72 (F := Ideal) (a0 m c) (a1 m c) (a2 m c) (a3 m c) (a4 m c) := by
  show StableHlo.after hostOps3 (W6 m ρ c) (Proc.devRef .tc main_v39) = _
  rw [take_v39, W6_v38 m ρ c hs, W6_v1, Cert.KernelIdeal.KTake.take64_eq _ _ hs]
  rfl

/-- The gather's stretch does not write the edge coefficients. -/
theorem W7_v28 (c : Dev nD) : W7 m ρ c (Proc.devRef .tc main_v28) = Cert.ReferenceIdeal.Read.val_main_v28 (F := Ideal) (a1 m c) := by
  dsimp only [W7, hostOps3]
  after_results_simp
  exact W6_v28 m ρ c

/-- The gather's stretch does not write the destination indices. -/
theorem W7_v3 (c : Dev nD) : W7 m ρ c (Proc.devRef .tc main_v3) = Cert.ReferenceIdeal.Read.val_main_v3 (F := Ideal) (a1 m c) := by
  dsimp only [W7, hostOps3]
  after_results_simp
  exact W6_v3 m ρ c

/-! ## After the second aggregation -/

/-- The gathered rows scaled by the edge coefficients and scatter-added at the destinations: the reference's
    second aggregate. -/
theorem W8_v45 (c : Dev nD) (hs : Cert.KernelIdeal.Mask.InRange (Cert.ReferenceIdeal.Read.val_main_v1 (F := Ideal) (a1 m c))) :
    W8 m ρ c (Proc.devRef .tc main_v45) = Cert.ReferenceIdeal.Read.val_main_v78 (F := Ideal) (a0 m c) (a1 m c) (a2 m c) (a3 m c) (a4 m c) := by
  have e39 := W7_v39 m ρ c hs
  have e28 := W7_v28 m ρ c
  have e3 := W7_v3 m ρ c
  show StableHlo.after hostOps3_1 (W7 m ρ c) (Proc.devRef .tc main_v45) = _
  generalize W7 m ρ c = V at e39 e28 e3 ⊢
  dsimp only [hostOps3_1]
  after_results_simp
  rw [e39, e28, e3]
  rfl

/-- The two stretches do not write the second projection. -/
theorem W8_v38 (c : Dev nD) (hs : Cert.KernelIdeal.Mask.InRange (Cert.ReferenceIdeal.Read.val_main_v1 (F := Ideal) (a1 m c))) : W8 m ρ c (Proc.devRef .tc main_v38) = Cert.ReferenceIdeal.Read.val_main_v50 (F := Ideal) (a0 m c) (a1 m c) (a2 m c) (a3 m c) (a4 m c) := by
  dsimp only [W8, W7, hostOps3_1, hostOps3]
  after_results_simp
  exact W6_v38 m ρ c hs

/-- The two stretches do not write the source indices. -/
theorem W8_v1 (c : Dev nD) : W8 m ρ c (Proc.devRef .tc main_v1) = Cert.ReferenceIdeal.Read.val_main_v1 (F := Ideal) (a1 m c) := by
  dsimp only [W8, W7, hostOps3_1, hostOps3]
  after_results_simp
  exact W6_v1 m ρ c

/-- The two stretches do not write the destination indices. -/
theorem W8_v3 (c : Dev nD) : W8 m ρ c (Proc.devRef .tc main_v3) = Cert.ReferenceIdeal.Read.val_main_v3 (F := Ideal) (a1 m c) := by
  dsimp only [W8, W7, hostOps3_1, hostOps3]
  after_results_simp
  exact W6_v3 m ρ c

/-- The two stretches do not write the column of inverse degrees. -/
theorem W8_v13 (c : Dev nD) : W8 m ρ c (Proc.devRef .tc main_v13) = Cert.ReferenceIdeal.Read.val_main_v42 (F := Ideal) (a1 m c) := by
  dsimp only [W8, W7, hostOps3_1, hostOps3]
  after_results_simp
  exact W6_v13 m ρ c

/-- The two stretches do not write the second layer's bias. -/
theorem W8_arg5 (c : Dev nD) : W8 m ρ c (Proc.devRef .tc main_arg5) = a5 m c := by
  dsimp only [W8, W7, hostOps3_1, hostOps3]
  after_results_simp
  exact W6_arg5 m ρ c

/-- The two stretches do not write the decoder's first weight. -/
theorem W8_arg6 (c : Dev nD) : W8 m ρ c (Proc.devRef .tc main_arg6) = a6 m c := by
  dsimp only [W8, W7, hostOps3_1, hostOps3]
  after_results_simp
  exact W6_arg6 m ρ c

/-- The two stretches do not write the decoder's first bias. -/
theorem W8_arg7 (c : Dev nD) : W8 m ρ c (Proc.devRef .tc main_arg7) = a7 m c := by
  dsimp only [W8, W7, hostOps3_1, hostOps3]
  after_results_simp
  exact W6_arg7 m ρ c

/-- The two stretches do not write the decoder's second weight. -/
theorem W8_arg8 (c : Dev nD) : W8 m ρ c (Proc.devRef .tc main_arg8) = a8 m c := by
  dsimp only [W8, W7, hostOps3_1, hostOps3]
  after_results_simp
  exact W6_arg8 m ρ c

/-- The two stretches do not write the decoder's second bias. -/
theorem W8_arg9 (c : Dev nD) : W8 m ρ c (Proc.devRef .tc main_arg9) = a9 m c := by
  dsimp only [W8, W7, hostOps3_1, hostOps3]
  after_results_simp
  exact W6_arg9 m ρ c

/-- The two stretches do not write the decoder's third weight. -/
theorem W8_arg10 (c : Dev nD) : W8 m ρ c (Proc.devRef .tc main_arg10) = a10 m c := by
  dsimp only [W8, W7, hostOps3_1, hostOps3]
  after_results_simp
  exact W6_arg10 m ρ c

/-- The two stretches do not write the decoder's third bias. -/
theorem W8_arg11 (c : Dev nD) : W8 m ρ c (Proc.devRef .tc main_arg11) = a11 m c := by
  dsimp only [W8, W7, hostOps3_1, hostOps3]
  after_results_simp
  exact W6_arg11 m ρ c

/-- The two stretches do not write the decoder's last weight. -/
theorem W8_arg12 (c : Dev nD) : W8 m ρ c (Proc.devRef .tc main_arg12) = a12 m c := by
  dsimp only [W8, W7, hostOps3_1, hostOps3]
  after_results_simp
  exact W6_arg12 m ρ c

/-- The two stretches do not write the decoder's last bias. -/
theorem W8_arg13 (c : Dev nD) : W8 m ρ c (Proc.devRef .tc main_arg13) = a13 m c := by
  dsimp only [W8, W7, hostOps3_1, hostOps3]
  after_results_simp
  exact W6_arg13 m ρ c

/-! ## After the second layer's combine -/

/-- The region's output is the reference's second layer: the combine of the aggregate, the projection, the inverse
    degrees and the bias. -/
theorem W9_v46 (c : Dev nD) (hs : Cert.KernelIdeal.Mask.InRange (Cert.ReferenceIdeal.Read.val_main_v1 (F := Ideal) (a1 m c))) :
    W9 m ρ c (Proc.devRef .tc main_v46) = Cert.ReferenceIdeal.Read.val_main_v85 (F := Ideal) (a0 m c) (a1 m c) (a2 m c) (a3 m c) (a4 m c) (a5 m c) := by
  refine (W9_arr m ρ c 4).trans ?_
  rw [Cert.KernelIdeal.Region3.arr (V8 m ρ) c, Cert.ReferenceIdeal.RefSpec.v85_eq, Cert.ReferenceIdeal.RefSpec.v79_eq]
  have h45 : V8 m ρ c main_v45 = Cert.ReferenceIdeal.Read.val_main_v78 (F := Ideal) (a0 m c) (a1 m c) (a2 m c) (a3 m c) (a4 m c) := W8_v45 m ρ c hs
  have h38 : V8 m ρ c main_v38 = Cert.ReferenceIdeal.Read.val_main_v50 (F := Ideal) (a0 m c) (a1 m c) (a2 m c) (a3 m c) (a4 m c) := W8_v38 m ρ c hs
  have h13 : V8 m ρ c main_v13 = Cert.ReferenceIdeal.Read.val_main_v42 (F := Ideal) (a1 m c) := W8_v13 m ρ c
  have h5 : V8 m ρ c main_arg5 = a5 m c := W8_arg5 m ρ c
  rw [h45, h38, h13, h5]

/-- The region leaves the source indices as they were. -/
theorem W9_v1 (c : Dev nD) : W9 m ρ c (Proc.devRef .tc main_v1) = Cert.ReferenceIdeal.Read.val_main_v1 (F := Ideal) (a1 m c) :=
  (W9_of_ne m ρ c main_v1 (by decide)).trans (W8_v1 m ρ c)

/-- The region leaves the destination indices as they were. -/
theorem W9_v3 (c : Dev nD) : W9 m ρ c (Proc.devRef .tc main_v3) = Cert.ReferenceIdeal.Read.val_main_v3 (F := Ideal) (a1 m c) :=
  (W9_of_ne m ρ c main_v3 (by decide)).trans (W8_v3 m ρ c)

/-- The region leaves the decoder's first weight as they were. -/
theorem W9_arg6 (c : Dev nD) : W9 m ρ c (Proc.devRef .tc main_arg6) = a6 m c :=
  (W9_of_ne m ρ c main_arg6 (by decide)).trans (W8_arg6 m ρ c)

/-- The region leaves the decoder's first bias as they were. -/
theorem W9_arg7 (c : Dev nD) : W9 m ρ c (Proc.devRef .tc main_arg7) = a7 m c :=
  (W9_of_ne m ρ c main_arg7 (by decide)).trans (W8_arg7 m ρ c)

/-- The region leaves the decoder's second weight as they were. -/
theorem W9_arg8 (c : Dev nD) : W9 m ρ c (Proc.devRef .tc main_arg8) = a8 m c :=
  (W9_of_ne m ρ c main_arg8 (by decide)).trans (W8_arg8 m ρ c)

/-- The region leaves the decoder's second bias as they were. -/
theorem W9_arg9 (c : Dev nD) : W9 m ρ c (Proc.devRef .tc main_arg9) = a9 m c :=
  (W9_of_ne m ρ c main_arg9 (by decide)).trans (W8_arg9 m ρ c)

/-- The region leaves the decoder's third weight as they were. -/
theorem W9_arg10 (c : Dev nD) : W9 m ρ c (Proc.devRef .tc main_arg10) = a10 m c :=
  (W9_of_ne m ρ c main_arg10 (by decide)).trans (W8_arg10 m ρ c)

/-- The region leaves the decoder's third bias as they were. -/
theorem W9_arg11 (c : Dev nD) : W9 m ρ c (Proc.devRef .tc main_arg11) = a11 m c :=
  (W9_of_ne m ρ c main_arg11 (by decide)).trans (W8_arg11 m ρ c)

/-- The region leaves the decoder's last weight as they were. -/
theorem W9_arg12 (c : Dev nD) : W9 m ρ c (Proc.devRef .tc main_arg12) = a12 m c :=
  (W9_of_ne m ρ c main_arg12 (by decide)).trans (W8_arg12 m ρ c)

/-- The region leaves the decoder's last bias as they were. -/
theorem W9_arg13 (c : Dev nD) : W9 m ρ c (Proc.devRef .tc main_arg13) = a13 m c :=
  (W9_of_ne m ρ c main_arg13 (by decide)).trans (W8_arg13 m ρ c)

end Cert.KernelIdeal.Chain

end
-- ==== Proof.Region4.lean ====
/-
  The edge decoder as the fifth kernel leaves it.

  The grid has 200 points; point `t` loads rows `8000 t … 8000 t + 7999` of the `1600000 × 128` edge features and all
  four weights and biases whole, and writes back the same rows of the `1600000 × 1` result: three affine layers
  clipped below at zero and a last affine layer, each product read as the sum over its contracted axis (the
  changes of float format on the way into the matrix unit are the identity over the extended reals). A row of the
  result depends only on the same row of the edge features, and the row blocks tile the array.
-/
import proofs.«405343_j79405355369095_1_alg».proof.Proof.Gen.KernelIdeal.Frame
import proofs.«405343_j79405355369095_1_alg».proof.Proof.Spec
import proofs.«405343_j79405355369095_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One affine layer as the matrix unit computes it -/

/-- An affine layer of the kernel at one entry: the product into a zero accumulator is the sum over the contracted
    axis (the narrowing of both operands is the identity over the extended reals), and the bias vector, cast to a
    one-row matrix and repeated down the rows, is read at the entry's column. -/
theorem affine_apply (M K N : Nat) (x : FVec Ideal ⟨2, ![M, K]⟩ .f32) (w : FVec Ideal ⟨2, ![K, N]⟩ .f32)
    (b : FVec Ideal ⟨1, ![N]⟩ .f32) (hx : FTy.bits .bf16 < FTy.bits .f32) (hw : FTy.bits .bf16 < FTy.bits .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul (DotDims.plain M K N) none (truncf .bf16 x hx) (truncf .bf16 w hw)
        (constant (F := Ideal) ⟨2, ![M, N]⟩ .f32 0x00000000#32))
      (broadcastTo ⟨2, ![M, N]⟩ (shapeCast ⟨2, ![1, N]⟩ b hc) hb) (ix2 p q)
      = Cert.Spec.lin x w b (ix2 p q) := by
  rw [addf_apply, broadcastTo_1b_ab_apply, shapeCast_a_1a_apply]
  exact congrArg (· + b (ix1 q))
    (Cert.LibPlainDot.matmul_plain_zero_apply M K N none (truncf .bf16 x hx) (truncf .bf16 w hw) (ix2 p q))

/-- The same as whole arrays. -/
theorem affine_eq (M K N : Nat) (x : FVec Ideal ⟨2, ![M, K]⟩ .f32) (w : FVec Ideal ⟨2, ![K, N]⟩ .f32)
    (b : FVec Ideal ⟨1, ![N]⟩ .f32) (hx : FTy.bits .bf16 < FTy.bits .f32) (hw : FTy.bits .bf16 < FTy.bits .f32)
    (hc : (⟨1, ![N]⟩ : Shape).ShapeCasts ⟨2, ![1, N]⟩) (hb : (⟨2, ![1, N]⟩ : Shape).Broadcasts ⟨2, ![M, N]⟩) :
    addf (matmul (DotDims.plain M K N) none (truncf .bf16 x hx) (truncf .bf16 w hw)
        (constant (F := Ideal) ⟨2, ![M, N]⟩ .f32 0x00000000#32))
      (broadcastTo ⟨2, ![M, N]⟩ (shapeCast ⟨2, ![1, N]⟩ b hc) hb)
      = Cert.Spec.lin x w b := by
  funext j
  obtain ⟨p, q, rfl⟩ : ∃ (p : Fin M) (q : Fin N), j = ix2 p q := ⟨j 0, j 1, eq_ix2 j⟩
  exact affine_apply M K N x w b hx hw hc hb p q

/-- An affine layer clipped below at the zero word, as whole arrays. -/
theorem affineRelu_eq (M K N : Nat) (x : FVec Ideal ⟨2, ![M, K]⟩ .f32) (w : FVec Ideal ⟨2, ![K, N]⟩ .f32)
    (b : FVec Ideal ⟨1, ![N]⟩ .f32) (hx : FTy.bits .bf16 < FTy.bits .f32) (hw : FTy.bits .bf16 < FTy.bits .f32)
    (hc : (⟨1, ![N]⟩ : Shape).ShapeCasts ⟨2, ![1, N]⟩) (hb : (⟨2, ![1, N]⟩ : Shape).Broadcasts ⟨2, ![M, N]⟩) :
    maximumf (addf (matmul (DotDims.plain M K N) none (truncf .bf16 x hx) (truncf .bf16 w hw)
          (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = Cert.Spec.linRelu x w b := by
  rw [affine_eq M K N x w b hx hw hc hb]
  rfl

/-! ## The body's payload -/

/-- What the body stores is the decoder of its loaded blocks: three clipped affine layers and a last affine one, the
    last bias added by the store's own sum. -/
theorem pay_eq (x0 : Vec Ideal S8000x128 .f32) (x1 : Vec Ideal S128x64 .f32) (x2 : Vec Ideal S64 .f32)
    (x3 : Vec Ideal S64x32 .f32) (x4 : Vec Ideal S32 .f32) (x5 : Vec Ideal S32x16 .f32) (x6 : Vec Ideal S16 .f32)
    (x7 : Vec Ideal S16x1 .f32) (x8 : Vec Ideal S1 .f32) :
    k4_pay1 (k4_pay2 x0 x1 x2 x3 x4 x5 x6 x7) (k4_pay3 x8) = Cert.Spec.decode x0 x1 x2 x3 x4 x5 x6 x7 x8 := by
  unfold k4_pay1 k4_pay2 k4_pay3 Cert.Spec.decode
  dsimp only
  rw [shapeCast_self]
  exact (affine_eq 8000 16 1 _ x7 x8 _ _ _ _).trans (congrArg (fun z => Cert.Spec.lin z x7 x8)
    ((affineRelu_eq 8000 32 16 _ x5 x6 _ _ _ _).trans (congrArg (fun z => Cert.Spec.linRelu z x5 x6)
      ((affineRelu_eq 8000 64 32 _ x3 x4 _ _ _ _).trans (congrArg (fun z => Cert.Spec.linRelu z x3 x4)
        (affineRelu_eq 8000 128 64 x0 x1 x2 _ _ _ _))))))

/-! ## A row of the decoder reads one row of the edge features -/

/-- A clipped affine layer at row `r` reads only row `r` of its operand. -/
theorem linRelu_row {M M' K N : Nat} (x : Cert.Spec.Mat M K) (x' : Cert.Spec.Mat M' K) (w : Cert.Spec.Mat K N)
    (b : Cert.Spec.Vec1 N) (r : Fin M) (r' : Fin M') (h : ∀ k : Fin K, x (ix2 r k) = x' (ix2 r' k)) (q : Fin N) :
    Cert.Spec.linRelu x w b (ix2 r q) = Cert.Spec.linRelu x' w b (ix2 r' q) := by
  show max ((∑ k : Fin K, x (ix2 r k) * w (ix2 k q)) + b (ix1 q)) Cert.Spec.zeroW
    = max ((∑ k : Fin K, x' (ix2 r' k) * w (ix2 k q)) + b (ix1 q)) Cert.Spec.zeroW
  simp only [h]

/-- So does an affine layer. -/
theorem lin_row {M M' K N : Nat} (x : Cert.Spec.Mat M K) (x' : Cert.Spec.Mat M' K) (w : Cert.Spec.Mat K N)
    (b : Cert.Spec.Vec1 N) (r : Fin M) (r' : Fin M') (h : ∀ k : Fin K, x (ix2 r k) = x' (ix2 r' k)) (q : Fin N) :
    Cert.Spec.lin x w b (ix2 r q) = Cert.Spec.lin x' w b (ix2 r' q) := by
  show (∑ k : Fin K, x (ix2 r k) * w (ix2 k q)) + b (ix1 q) = (∑ k : Fin K, x' (ix2 r' k) * w (ix2 k q)) + b (ix1 q)
  simp only [h]

/-- So row `r` of the decoder of one array is row `r'` of the decoder of another whose row `r'` is the first one's
    row `r`: the four layers in turn. -/
theorem decode_row {E E' : Nat} (h : Cert.Spec.Mat E 128) (h' : Cert.Spec.Mat E' 128) (w1 : Cert.Spec.Mat 128 64)
    (b1 : Cert.Spec.Vec1 64) (w2 : Cert.Spec.Mat 64 32) (b2 : Cert.Spec.Vec1 32) (w3 : Cert.Spec.Mat 32 16)
    (b3 : Cert.Spec.Vec1 16) (w4 : Cert.Spec.Mat 16 1) (b4 : Cert.Spec.Vec1 1) (r : Fin E) (r' : Fin E')
    (hrow : ∀ k : Fin 128, h (ix2 r k) = h' (ix2 r' k)) (u : Fin 1) :
    Cert.Spec.decode h w1 b1 w2 b2 w3 b3 w4 b4 (ix2 r u) = Cert.Spec.decode h' w1 b1 w2 b2 w3 b3 w4 b4 (ix2 r' u) := by
  unfold Cert.Spec.decode
  exact lin_row _ _ w4 b4 r r' (fun k3 => linRelu_row _ _ w3 b3 r r' (fun k2 => linRelu_row _ _ w2 b2 r r'
    (fun k1 => linRelu_row _ _ w1 b1 r r' hrow k1) k2) k3) u

/-! ## The windows' index maps over the grid -/

theorem hz2 : (![0, 0] : Fin 2 → Nat) = fun _ => 0 := funext fun a => by fin_cases a <;> rfl
theorem hz1 : (![0] : Fin 1 → Nat) = fun _ => 0 := funext fun a => by fin_cases a <;> rfl

/-- The edge features' window moves down the rows with the grid point and stays in column block 0. -/
theorem idx0 : ∀ t : Fin cfg4.N, win4_0.index t (0 : Fin 2) = t.val ∧ win4_0.index t (1 : Fin 2) = 0 :=
  (by decide +kernel : ∀ t : Fin grid4.N, _)
/-- So does the output's. -/
theorem idx9 : ∀ t : Fin cfg4.N, win4_9.index t (0 : Fin 2) = t.val ∧ win4_9.index t (1 : Fin 2) = 0 :=
  (by decide +kernel : ∀ t : Fin grid4.N, _)
/-- The weights' and biases' windows stay at block 0. -/
theorem idx1 : ∀ t : Fin cfg4.N, win4_1.index t (0 : Fin 2) = 0 ∧ win4_1.index t (1 : Fin 2) = 0 :=
  (by decide +kernel : ∀ t : Fin grid4.N, _)
theorem idx2 : ∀ t : Fin cfg4.N, win4_2.index t (0 : Fin 1) = 0 :=
  (by decide +kernel : ∀ t : Fin grid4.N, _)
theorem idx3 : ∀ t : Fin cfg4.N, win4_3.index t (0 : Fin 2) = 0 ∧ win4_3.index t (1 : Fin 2) = 0 :=
  (by decide +kernel : ∀ t : Fin grid4.N, _)
theorem idx4 : ∀ t : Fin cfg4.N, win4_4.index t (0 : Fin 1) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 1) = 0 :=
  (by decide +kernel : ∀ t : Fin grid4.N, _)
theorem idx7 : ∀ t : Fin cfg4.N, win4_7.index t (0 : Fin 2) = 0 ∧ win4_7.index t (1 : Fin 2) = 0 :=
  (by decide +kernel : ∀ t : Fin grid4.N, _)
theorem idx8 : ∀ t : Fin cfg4.N, win4_8.index t (0 : Fin 1) = 0 :=
  (by decide +kernel : ∀ t : Fin grid4.N, _)

-- the TensorCore's buffer contents when the region is entered
variable (V : (c : Dev nD) → (b : Ref sig .tc) → Buf (Elt Ideal) ((c : Thread nD τ).loc b))

/-! ## The input windows' blocks, read off their arrays -/

/-- The edge features' block at point `t` is rows `8000 t … 8000 t + 7999` of the array. -/
theorem iblk0_apply (c : Dev nD) (t : Fin cfg4.N) (p : Fin 8000) (q : Fin 128) (r : Fin 1600000)
    (hr : r.val = 8000 * t.val + p.val) :
    (iblk4 V c 0 t : Vec Ideal S8000x128 .f32) (ix2 p q)
      = (V c main_v49 : S1600000x128.Idx → Elt Ideal .f32) (ix2 r q) := by
  obtain ⟨e0, e1⟩ := idx0 t
  unfold iblk4
  rw [View.read_apply]
  show V c main_v49 _ = V c main_v49 _
  congr 1
  funext a
  apply Fin.ext
  match a with
  | ⟨0, _⟩ => show win4_0.index t (0 : Fin 2) * 8000 + 1 * p.val = r.val; rw [e0, hr]; omega
  | ⟨1, _⟩ => show win4_0.index t (1 : Fin 2) * 128 + 1 * q.val = q.val; rw [e1]; omega

/-- A weight's or bias's block is its whole array, at every point. -/
theorem iblk1_eq (c : Dev nD) (t : Fin cfg4.N) :
    (iblk4 V c 1 t : Vec Ideal S128x64 .f32) = (V c main_arg6 : S128x64.Idx → Elt Ideal .f32) := by
  obtain ⟨e0, e1⟩ := idx1 t
  funext y
  unfold iblk4
  rw [View.read_apply]
  show V c main_arg6 _ = V c main_arg6 y
  congr 1
  funext a
  apply Fin.ext
  match a with
  | ⟨0, _⟩ => show win4_1.index t (0 : Fin 2) * 128 + 1 * (y 0).val = (y 0).val; rw [e0]; omega
  | ⟨1, _⟩ => show win4_1.index t (1 : Fin 2) * 64 + 1 * (y 1).val = (y 1).val; rw [e1]; omega

theorem iblk2_eq (c : Dev nD) (t : Fin cfg4.N) :
    (iblk4 V c 2 t : Vec Ideal S64 .f32) = (V c main_arg7 : S64.Idx → Elt Ideal .f32) := by
  have e0 := idx2 t
  funext y
  unfold iblk4
  rw [View.read_apply]
  show V c main_arg7 _ = V c main_arg7 y
  congr 1
  funext a
  apply Fin.ext
  match a with
  | ⟨0, _⟩ => show win4_2.index t (0 : Fin 1) * 64 + 1 * (y 0).val = (y 0).val; rw [e0]; omega

theorem iblk3_eq (c : Dev nD) (t : Fin cfg4.N) :
    (iblk4 V c 3 t : Vec Ideal S64x32 .f32) = (V c main_arg8 : S64x32.Idx → Elt Ideal .f32) := by
  obtain ⟨e0, e1⟩ := idx3 t
  funext y
  unfold iblk4
  rw [View.read_apply]
  show V c main_arg8 _ = V c main_arg8 y
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 32 + 1 * (y 1).val = (y 1).val; rw [e1]; omega

theorem iblk4_eq (c : Dev nD) (t : Fin cfg4.N) :
    (iblk4 V c 4 t : Vec Ideal S32 .f32) = (V c main_arg9 : S32.Idx → Elt Ideal .f32) := by
  have e0 := idx4 t
  funext y
  unfold iblk4
  rw [View.read_apply]
  show V c main_arg9 _ = V c main_arg9 y
  congr 1
  funext a
  apply Fin.ext
  match a with
  | ⟨0, _⟩ => show win4_4.index t (0 : Fin 1) * 32 + 1 * (y 0).val = (y 0).val; rw [e0]; omega

theorem iblk5_eq (c : Dev nD) (t : Fin cfg4.N) :
    (iblk4 V c 5 t : Vec Ideal S32x16 .f32) = (V c main_arg10 : S32x16.Idx → Elt Ideal .f32) := by
  obtain ⟨e0, e1⟩ := idx5 t
  funext y
  unfold iblk4
  rw [View.read_apply]
  show V c main_arg10 _ = V c main_arg10 y
  congr 1
  funext a
  apply Fin.ext
  match a with
  | ⟨0, _⟩ => show win4_5.index t (0 : Fin 2) * 32 + 1 * (y 0).val = (y 0).val; rw [e0]; omega
  | ⟨1, _⟩ => show win4_5.index t (1 : Fin 2) * 16 + 1 * (y 1).val = (y 1).val; rw [e1]; omega

theorem iblk6_eq (c : Dev nD) (t : Fin cfg4.N) :
    (iblk4 V c 6 t : Vec Ideal S16 .f32) = (V c main_arg11 : S16.Idx → Elt Ideal .f32) := by
  have e0 := idx6 t
  funext y
  unfold iblk4
  rw [View.read_apply]
  show V c main_arg11 _ = V c main_arg11 y
  congr 1
  funext a
  apply Fin.ext
  match a with
  | ⟨0, _⟩ => show win4_6.index t (0 : Fin 1) * 16 + 1 * (y 0).val = (y 0).val; rw [e0]; omega

theorem iblk7_eq (c : Dev nD) (t : Fin cfg4.N) :
    (iblk4 V c 7 t : Vec Ideal S16x1 .f32) = (V c main_arg12 : S16x1.Idx → Elt Ideal .f32) := by
  obtain ⟨e0, e1⟩ := idx7 t
  funext y
  unfold iblk4
  rw [View.read_apply]
  show V c main_arg12 _ = V c main_arg12 y
  congr 1
  funext a
  apply Fin.ext
  match a with
  | ⟨0, _⟩ => show win4_7.index t (0 : Fin 2) * 16 + 1 * (y 0).val = (y 0).val; rw [e0]; omega
  | ⟨1, _⟩ => show win4_7.index t (1 : Fin 2) * 1 + 1 * (y 1).val = (y 1).val; rw [e1]; omega

theorem iblk8_eq (c : Dev nD) (t : Fin cfg4.N) :
    (iblk4 V c 8 t : Vec Ideal S1 .f32) = (V c main_arg13 : S1.Idx → Elt Ideal .f32) := by
  have e0 := idx8 t
  funext y
  unfold iblk4
  rw [View.read_apply]
  show V c main_arg13 _ = V c main_arg13 y
  congr 1
  funext a
  apply Fin.ext
  match a with
  | ⟨0, _⟩ => show win4_8.index t (0 : Fin 1) * 1 + 1 * (y 0).val = (y 0).val; rw [e0]; omega

/-! ## What a point writes back, the cover, the array -/

/-- What point `t` writes back is block `t` of the decoder of the arrays as the region finds them: the body's
    payload is the decoder of its blocks, the weights' and biases' blocks are their arrays, and row `p` of the edge
    features' block is row `8000 t + p` of the array, which is all that row of the decoder reads. -/
theorem flushed_eq (c : Dev nD) (t : Fin cfg4.N) :
    (dat4 (F := Ideal) V c).flushed 9 t = ((cfg4.win 9).blk t).view.read (Elt Ideal)
      (Cert.Spec.decode (V c main_v49) (V c main_arg6) (V c main_arg7) (V c main_arg8) (V c main_arg9)
        (V c main_arg10) (V c main_arg11) (V c main_arg12) (V c main_arg13)) := by
  show (cfg4.win 9).cut (grid4.coords t) ((dat4 (F := Ideal) V c).after 9 t) = _
  rw [after4_9]
  unfold out4_9
  rw [View.canon_unit_zero hz2]
  simp only [View.ld_unit_zero (S := S8000x128) hz2, View.ld_unit_zero (S := S128x64) hz2,
    View.ld_unit_zero (S := S64) hz1, View.ld_unit_zero (S := S64x32) hz2, View.ld_unit_zero (S := S32) hz1,
    View.ld_unit_zero (S := S32x16) hz2, View.ld_unit_zero (S := S16) hz1, View.ld_unit_zero (S := S16x1) hz2,
    View.ld_unit_zero (S := S1) hz1]
  rw [pay_eq (iblk4 V c 0 t) (iblk4 V c 1 t) (iblk4 V c 2 t) (iblk4 V c 3 t) (iblk4 V c 4 t) (iblk4 V c 5 t)
    (iblk4 V c 6 t) (iblk4 V c 7 t) (iblk4 V c 8 t)]
  rw [iblk1_eq V c t, iblk2_eq V c t, iblk3_eq V c t, iblk4_eq V c t, iblk5_eq V c t, iblk6_eq V c t, iblk7_eq V c t,
    iblk8_eq V c t]
  have hN : cfg4.N = 200 := N_4
  obtain ⟨e0, e1⟩ := idx9 t
  funext j
  obtain ⟨p, u, rfl⟩ : ∃ (p : Fin 8000) (u : Fin 1), j = ix2 p u := ⟨j 0, j 1, eq_ix2 j⟩
  have hr : 8000 * t.val + p.val < 1600000 := by have := t.isLt; omega
  have hemb : ((cfg4.win 9).blk t).view.emb (ix2 p u)
      = (ix2 (⟨8000 * t.val + p.val, hr⟩ : Fin 1600000) u : S1600000x1.Idx) := by
    funext a
    apply Fin.ext
    match a with
    | ⟨0, _⟩ => show win4_9.index t (0 : Fin 2) * 8000 + 1 * p.val = 8000 * t.val + p.val; rw [e0]; omega
    | ⟨1, _⟩ => show win4_9.index t (1 : Fin 2) * 1 + 1 * u.val = u.val; rw [e1]; omega
  show Cert.Spec.decode (iblk4 V c 0 t : Vec Ideal S8000x128 .f32) (V c main_arg6) (V c main_arg7) (V c main_arg8)
      (V c main_arg9) (V c main_arg10) (V c main_arg11) (V c main_arg12) (V c main_arg13) (ix2 p u)
    = Cert.Spec.decode (V c main_v49) (V c main_arg6) (V c main_arg7) (V c main_arg8) (V c main_arg9)
      (V c main_arg10) (V c main_arg11) (V c main_arg12) (V c main_arg13) (((cfg4.win 9).blk t).view.emb (ix2 p u))
  rw [hemb]
  exact decode_row _ _ _ _ _ _ _ _ _ _ p ⟨8000 * t.val + p.val, hr⟩
    (fun k => iblk0_apply V c t p k ⟨8000 * t.val + p.val, hr⟩ rfl) u

/-- An index of the array is in point `t`'s block iff each coordinate is in the block's range on its axis. -/
theorem mem_blk (t : Fin cfg4.N) (i : S1600000x1.Idx) :
    i ∈ ((cfg4.win 9).blk t).view.set ↔ ∀ a : Fin 2, win4_9.index t a * S8000x1.size a ≤ (i a).val
      ∧ (i a).val < win4_9.index t a * S8000x1.size a + S8000x1.size a := by
  show i ∈ ((View.whole main_v50).slice (win4_9.rect t)).set ↔ _
  rw [View.set_slice_whole, Rect.mem_set_unit]
  exact Iff.rfl

/-- The row blocks tile the array: row `r` is in the block of point `r / 8000`, and every point writes back. -/
theorem cover (i : S1600000x1.Idx) :
    ∃ t : Fin cfg4.N, (cfg4.win 9).flush t = true ∧ i ∈ ((cfg4.win 9).blk t).view.set := by
  have hN : cfg4.N = 200 := N_4
  have hi0 : (i 0).val < 1600000 := idx2_lt0 i
  have hi1 : (i 1).val < 1 := idx2_lt1 i
  obtain ⟨t, ht⟩ : ∃ t : Fin cfg4.N, t.val = (i 0).val / 8000 := ⟨⟨(i 0).val / 8000, by omega⟩, rfl⟩
  obtain ⟨e0, e1⟩ := idx9 t
  refine ⟨t, flush4_9 t, ?_⟩
  rw [mem_blk]
  intro a
  match a with
  | ⟨0, _⟩ =>
    show win4_9.index t (0 : Fin 2) * 8000 ≤ (i 0).val ∧ (i 0).val < win4_9.index t (0 : Fin 2) * 8000 + 8000
    rw [e0]; omega
  | ⟨1, _⟩ =>
    show win4_9.index t (1 : Fin 2) * 1 ≤ (i 1).val ∧ (i 1).val < win4_9.index t (1 : Fin 2) * 1 + 1
    rw [e1]; omega

/-- After the last grid point the output array is the whole-array function of the region's input arrays. -/
theorem arr (c : Dev nD) :
    (dat4 (F := Ideal) V c).arrAt 9 cfg4.N
      = Cert.Spec.decode (V c main_v49) (V c main_arg6) (V c main_arg7) (V c main_arg8) (V c main_arg9)
          (V c main_arg10) (V c main_arg11) (V c main_arg12) (V c main_arg13) :=
  (dat4 (F := Ideal) V c).arrAt_eq_of_cover 9 _ (fun t _ => flushed_eq V c t) cover

end Cert.KernelIdeal.Region4

end
-- ==== Proof.ChainD.lean ====
/-
  The edge decoder of the idealized kernel program, read back, and the whole result.

  Two filled gathers take the second layer's rows at the sources and at the destinations (both in range: the
  reference's gathers), their concatenation along the columns is the reference's edge feature array, the fifth kernel
  region applies the decoder to it, and the last host operation reshapes the `[E, 1]` column to `[E]`. So the
  result buffer at the last boundary is the reference's result function of the launch arguments.
-/
import proofs.«405343_j79405355369095_1_alg».proof.Proof.Gen.KernelIdeal.Frame
import proofs.«405343_j79405355369095_1_alg».proof.Proof.Gen.ReferenceIdeal.Read
import proofs.«405343_j79405355369095_1_alg».proof.Proof.Spec
import proofs.«405343_j79405355369095_1_alg».proof.Proof.RefSpec
import proofs.«405343_j79405355369095_1_alg».proof.Proof.KTake
import proofs.«405343_j79405355369095_1_alg».proof.Proof.ChainC
import proofs.«405343_j79405355369095_1_alg».proof.Proof.Region4
import Idealize.ShloMosaic.Lib.StableHlo.Run
import Idealize.ShloMosaic.PureOps.Ideal

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the gather at the sources -/

/-- With the sources in range it is the reference's gather of the second layer's rows at the sources. -/
theorem W10_v47 (c : Dev nD) (hs : Cert.KernelIdeal.Mask.InRange (Cert.ReferenceIdeal.Read.val_main_v1 (F := Ideal) (a1 m c))) :
    W10 m ρ c (Proc.devRef .tc main_v47) = Cert.ReferenceIdeal.Read.val_main_v92 (F := Ideal) (a0 m c) (a1 m c) (a2 m c) (a3 m c) (a4 m c) (a5 m c) := by
  show StableHlo.after hostOps4 (W9 m ρ c) (Proc.devRef .tc main_v47) = _
  rw [take_v47, W9_v46 m ρ c hs, W9_v1, Cert.KernelIdeal.KTake.take64_eq _ _ hs]
  rfl

/-- The stretch does not write the second layer. -/
theorem W10_v46 (c : Dev nD) (hs : Cert.KernelIdeal.Mask.InRange (Cert.ReferenceIdeal.Read.val_main_v1 (F := Ideal) (a1 m c))) : W10 m ρ c (Proc.devRef .tc main_v46) = Cert.ReferenceIdeal.Read.val_main_v85 (F := Ideal) (a0 m c) (a1 m c) (a2 m c) (a3 m c) (a4 m c) (a5 m c) := by
  dsimp only [W10, hostOps4]
  after_results_simp
  exact W9_v46 m ρ c hs

/-- The stretch does not write the destination indices. -/
theorem W10_v3 (c : Dev nD) : W10 m ρ c (Proc.devRef .tc main_v3) = Cert.ReferenceIdeal.Read.val_main_v3 (F := Ideal) (a1 m c) := by
  dsimp only [W10, hostOps4]
  after_results_simp
  exact W9_v3 m ρ c

/-! ## After the gather at the destinations -/

/-- With the destinations in range it is the reference's gather of the second layer's rows at the destinations. -/
theorem W11_v48 (c : Dev nD) (hs : Cert.KernelIdeal.Mask.InRange (Cert.ReferenceIdeal.Read.val_main_v1 (F := Ideal) (a1 m c))) (hd : Cert.KernelIdeal.Mask.InRange (Cert.ReferenceIdeal.Read.val_main_v3 (F := Ideal) (a1 m c))) :
    W11 m ρ c (Proc.devRef .tc main_v48) = Cert.ReferenceIdeal.Read.val_main_v99 (F := Ideal) (a0 m c) (a1 m c) (a2 m c) (a3 m c) (a4 m c) (a5 m c) := by
  show StableHlo.after hostOps4_1 (W10 m ρ c) (Proc.devRef .tc main_v48) = _
  rw [take_v48, W10_v46 m ρ c hs, W10_v3, Cert.KernelIdeal.KTake.take64_eq _ _ hd]
  rfl

/-- The stretch does not write the rows gathered at the sources. -/
theorem W11_v47 (c : Dev nD) (hs : Cert.KernelIdeal.Mask.InRange (Cert.ReferenceIdeal.Read.val_main_v1 (F := Ideal) (a1 m c))) :
    W11 m ρ c (Proc.devRef .tc main_v47) = Cert.ReferenceIdeal.Read.val_main_v92 (F := Ideal) (a0 m c) (a1 m c) (a2 m c) (a3 m c) (a4 m c) (a5 m c) := by
  have e47 := W10_v47 m ρ c hs
  show StableHlo.after hostOps4_1 (W10 m ρ c) (Proc.devRef .tc main_v47) = _
  generalize W10 m ρ c = V at e47 ⊢
  dsimp only [hostOps4_1]
  after_results_simp
  exact e47

/-! ## After the concatenation -/

/-- The two gathered arrays side by side: the reference's edge features. -/
theorem W12_v49 (c : Dev nD) (hs : Cert.KernelIdeal.Mask.InRange (Cert.ReferenceIdeal.Read.val_main_v1 (F := Ideal) (a1 m c))) (hd : Cert.KernelIdeal.Mask.InRange (Cert.ReferenceIdeal.Read.val_main_v3 (F := Ideal) (a1 m c))) :
    W12 m ρ c (Proc.devRef .tc main_v49) = Cert.ReferenceIdeal.Read.val_main_v100 (F := Ideal) (a0 m c) (a1 m c) (a2 m c) (a3 m c) (a4 m c) (a5 m c) := by
  have e47 := W11_v47 m ρ c hs
  have e48 := W11_v48 m ρ c hs hd
  show StableHlo.after hostOps4_2 (W11 m ρ c) (Proc.devRef .tc main_v49) = _
  generalize W11 m ρ c = V at e47 e48 ⊢
  dsimp only [hostOps4_2]
  after_results_simp
  rw [e47, e48]
  rfl

/-- The three stretches do not write the decoder's first weight. -/
theorem W12_arg6 (c : Dev nD) : W12 m ρ c (Proc.devRef .tc main_arg6) = a6 m c := by
  dsimp only [W12, W11, W10, hostOps4_2, hostOps4_1, hostOps4]
  after_results_simp
  exact W9_arg6 m ρ c

/-- The three stretches do not write the decoder's first bias. -/
theorem W12_arg7 (c : Dev nD) : W12 m ρ c (Proc.devRef .tc main_arg7) = a7 m c := by
  dsimp only [W12, W11, W10, hostOps4_2, hostOps4_1, hostOps4]
  after_results_simp
  exact W9_arg7 m ρ c

/-- The three stretches do not write the decoder's second weight. -/
theorem W12_arg8 (c : Dev nD) : W12 m ρ c (Proc.devRef .tc main_arg8) = a8 m c := by
  dsimp only [W12, W11, W10, hostOps4_2, hostOps4_1, hostOps4]
  after_results_simp
  exact W9_arg8 m ρ c

/-- The three stretches do not write the decoder's second bias. -/
theorem W12_arg9 (c : Dev nD) : W12 m ρ c (Proc.devRef .tc main_arg9) = a9 m c := by
  dsimp only [W12, W11, W10, hostOps4_2, hostOps4_1, hostOps4]
  after_results_simp
  exact W9_arg9 m ρ c

/-- The three stretches do not write the decoder's third weight. -/
theorem W12_arg10 (c : Dev nD) : W12 m ρ c (Proc.devRef .tc main_arg10) = a10 m c := by
  dsimp only [W12, W11, W10, hostOps4_2, hostOps4_1, hostOps4]
  after_results_simp
  exact W9_arg10 m ρ c

/-- The three stretches do not write the decoder's third bias. -/
theorem W12_arg11 (c : Dev nD) : W12 m ρ c (Proc.devRef .tc main_arg11) = a11 m c := by
  dsimp only [W12, W11, W10, hostOps4_2, hostOps4_1, hostOps4]
  after_results_simp
  exact W9_arg11 m ρ c

/-- The three stretches do not write the decoder's last weight. -/
theorem W12_arg12 (c : Dev nD) : W12 m ρ c (Proc.devRef .tc main_arg12) = a12 m c := by
  dsimp only [W12, W11, W10, hostOps4_2, hostOps4_1, hostOps4]
  after_results_simp
  exact W9_arg12 m ρ c

/-- The three stretches do not write the decoder's last bias. -/
theorem W12_arg13 (c : Dev nD) : W12 m ρ c (Proc.devRef .tc main_arg13) = a13 m c := by
  dsimp only [W12, W11, W10, hostOps4_2, hostOps4_1, hostOps4]
  after_results_simp
  exact W9_arg13 m ρ c

/-! ## After the decoder, and the result -/

/-- The region's output is the reference's decoder applied to the edge features. -/
theorem W13_v50 (c : Dev nD) (hs : Cert.KernelIdeal.Mask.InRange (Cert.ReferenceIdeal.Read.val_main_v1 (F := Ideal) (a1 m c))) (hd : Cert.KernelIdeal.Mask.InRange (Cert.ReferenceIdeal.Read.val_main_v3 (F := Ideal) (a1 m c))) :
    W13 m ρ c (Proc.devRef .tc main_v50) = Cert.ReferenceIdeal.Read.val_main_v119 (F := Ideal) (a0 m c) (a1 m c) (a2 m c) (a3 m c) (a4 m c) (a5 m c) (a6 m c) (a7 m c) (a8 m c) (a9 m c) (a10 m c) (a11 m c) (a12 m c) (a13 m c) := by
  refine (W13_arr m ρ c 9).trans ?_
  rw [Cert.KernelIdeal.Region4.arr (V12 m ρ) c, Cert.ReferenceIdeal.RefSpec.v119_decode]
  have h49 : V12 m ρ c main_v49 = Cert.ReferenceIdeal.Read.val_main_v100 (F := Ideal) (a0 m c) (a1 m c) (a2 m c) (a3 m c) (a4 m c) (a5 m c) := W12_v49 m ρ c hs hd
  have h6 : V12 m ρ c main_arg6 = a6 m c := W12_arg6 m ρ c
  have h7 : V12 m ρ c main_arg7 = a7 m c := W12_arg7 m ρ c
  have h8 : V12 m ρ c main_arg8 = a8 m c := W12_arg8 m ρ c
  have h9 : V12 m ρ c main_arg9 = a9 m c := W12_arg9 m ρ c
  have h10 : V12 m ρ c main_arg10 = a10 m c := W12_arg10 m ρ c
  have h11 : V12 m ρ c main_arg11 = a11 m c := W12_arg11 m ρ c
  have h12 : V12 m ρ c main_arg12 = a12 m c := W12_arg12 m ρ c
  have h13 : V12 m ρ c main_arg13 = a13 m c := W12_arg13 m ρ c
  rw [h49, h6, h7, h8, h9, h10, h11, h12, h13]

/-- The last host operation reshapes the decoder's column: the reference's result. -/
theorem W14_v51 (c : Dev nD) (hs : Cert.KernelIdeal.Mask.InRange (Cert.ReferenceIdeal.Read.val_main_v1 (F := Ideal) (a1 m c))) (hd : Cert.KernelIdeal.Mask.InRange (Cert.ReferenceIdeal.Read.val_main_v3 (F := Ideal) (a1 m c))) :
    W14 m ρ c (Proc.devRef .tc main_v51) = Cert.ReferenceIdeal.Read.val_main_v120 (F := Ideal) (a0 m c) (a1 m c) (a2 m c) (a3 m c) (a4 m c) (a5 m c) (a6 m c) (a7 m c) (a8 m c) (a9 m c) (a10 m c) (a11 m c) (a12 m c) (a13 m c) := by
  dsimp only [W14, hostOps5]
  after_results_simp
  rw [W13_v50 m ρ c hs hd]
  rfl

end Cert.KernelIdeal.Chain

end
-- ==== Proof.Chain.lean ====
/-
  The idealized kernel program's result, read back through its segment boundaries to the launch arguments.

  The program is five kernel regions among stretches of host operations. What a buffer holds at a boundary is: for a
  host stretch, the stretch's operations applied to the previous boundary's contents; for a region, the region's
  output array at the whole-array function of its input arrays, every other buffer unchanged. Walking back from the
  last boundary, each buffer the result depends on is the same composed function of the launch arguments as the
  reference's stage of the same name — the host stretches are the same operations in both programs, each region is
  the reference's product / combine / decoder, and the filled row gathers are plain gathers because the edge indices
  lie in range, which is what the precondition says of every entry of the edge-index array.
-/
import proofs.«405343_j79405355369095_1_alg».proof.Proof.ChainD
import proofs.«405343_j79405355369095_1_alg».proof.Proof.Mask

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer at the last boundary is the reference's result function of the launch arguments. -/
theorem result (hpre : Cert.Pre_KernelIdeal m) (c : Dev nD) :
    W14 (F := Ideal) m ρ c (Proc.devRef .tc main_v51)
      = Cert.ReferenceIdeal.Read.val_main_v120 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  have hs : Cert.KernelIdeal.Mask.InRange (Cert.ReferenceIdeal.Read.val_main_v1 (F := Ideal) (a1 m c)) :=
    Cert.KernelIdeal.Mask.src_inRange m hpre c
  have hd : Cert.KernelIdeal.Mask.InRange (Cert.ReferenceIdeal.Read.val_main_v3 (F := Ideal) (a1 m c)) :=
    Cert.KernelIdeal.Mask.dst_inRange m hpre c
  exact W14_v51 m ρ c hs hd

end Cert.KernelIdeal.Chain

end
-- ==== Proof.lean ====
/-
  The certificate's claim, assembled from the runs of its three programs.

  Each frame conjunct is a program's run with the result forgotten: every execution ends, and the argument arrays
  are as launched. The idealization rewrote no operation, so there is nothing for it to preserve. For the
  conjunct over the extended reals the common result is the reference's result function applied to the kernel
  side's launch arguments: the idealized kernel program ends with its result array at what its last segment
  boundary holds, which read back through the regions and the host stretches is that function of the arguments;
  the reference ends at the same function of its own arguments, and those agree with the kernel side's one by one.
-/
import proofs.«405343_j79405355369095_1_alg».proof.Defs
import proofs.«405343_j79405355369095_1_alg».proof.Proof.Gen.Kernel
import proofs.«405343_j79405355369095_1_alg».proof.Proof.Gen.Kernel.Skeleton
import proofs.«405343_j79405355369095_1_alg».proof.Proof.Gen.Kernel.Launch
import proofs.«405343_j79405355369095_1_alg».proof.Proof.Gen.Kernel.Points
import proofs.«405343_j79405355369095_1_alg».proof.Proof.Gen.Kernel.Frame
import proofs.«405343_j79405355369095_1_alg».proof.Proof.Gen.KernelIdeal
import proofs.«405343_j79405355369095_1_alg».proof.Proof.Gen.KernelIdeal.Skeleton
import proofs.«405343_j79405355369095_1_alg».proof.Proof.Gen.KernelIdeal.Launch
import proofs.«405343_j79405355369095_1_alg».proof.Proof.Gen.KernelIdeal.Points
import proofs.«405343_j79405355369095_1_alg».proof.Proof.Gen.KernelIdeal.Frame
import proofs.«405343_j79405355369095_1_alg».proof.Proof.Gen.ReferenceIdeal
import proofs.«405343_j79405355369095_1_alg».proof.Proof.Gen.Pre_finite_inputs
import proofs.«405343_j79405355369095_1_alg».proof.Proof.Gen.ReferenceIdeal.Run
import proofs.«405343_j79405355369095_1_alg».proof.Proof.Gen.ReferenceIdeal.Read
import proofs.«405343_j79405355369095_1_alg».proof.Proof.RunValue
import proofs.«405343_j79405355369095_1_alg».proof.Proof.Chain
import Idealize.ShloMosaic.Adequacy
import Idealize.ShloMosaic.Init

noncomputable section

namespace Cert.Proof

open Idealize.ShloMosaic Idealize.ShloMosaic.TcCoe Idealize.SL.Sem

/-- The kernel program runs and ends with its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and ends with its arguments as launched: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Over the extended reals, from memories that agree on the arguments, both programs end with the reference's
    result function of the kernel side's arguments in their result arrays, and with their arguments as launched. -/
theorem algebraic : Cert.algebraic_KernelIdeal_ReferenceIdeal := by
  intro m ρ m' ρ' hpre hagree
  refine ⟨fun c => Cert.ReferenceIdeal.Read.val_main_v120 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Chain.result m ρ hpre c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v120_eq m' c, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
